-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x1024 : Shape := ⟨3, ![256, 1024, 1024]⟩
abbrev S512x64 : Shape := ⟨2, ![512, 64]⟩
abbrev S512 : Shape := ⟨1, ![512]⟩
abbrev S_ : Shape := ⟨0, ![]⟩

class Facts : Prop where
  bcast_S_S256x1024x1024 : S_.BroadcastsInDim S256x1024x1024 (![] : Fin 0 → Fin S256x1024x1024.rank)
  reducesTo_S256x1024x1024_S_d0_1_2 : S256x1024x1024.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : IVec S512 32) (main_v13 : IVec S_ 1) (main_v15 : IVec S512 1) (main_c_5 : IVec S_ 1) : IVec S_ 1 :=
  let main_v16 : IVec S_ 1 := (fun x v => Host.reduce IntOp.andi x v reducesTo_S512_S_d0 h_S_) main_v15 main_c_5
  let main_v17 : IVec S_ 1 := andi main_v13 main_v16
  let main_c_6 : IVec S_ 32 := constantI S_ 32 1024#32
  let main_v18 : IVec S512 32 := broadcastInDim S512 ![] bcast_S_S512 main_c_6
  let main_v19 : IVec S512 1 := cmpi .slt main_arg4 main_v18
  let main_c_7 : IVec S_ 1 := constantI S_ 1 1#1
  let main_v20 : IVec S_ 1 := (fun x v => Host.reduce IntOp.andi x v reducesTo_S512_S_d0 h_S_) main_v19 main_c_7
  let main_v21 : IVec S_ 1 := andi main_v17 main_v20
  main_v21

def fn {F : FTy → Type} [FloatOps F] (main_arg0 : FVec F S256x1024x1024 .f32) (main_arg1 : FVec F S512x64 .f32) (main_arg2 : FVec F S512x64 .f32) (main_arg3 : IVec S512 32) (main_arg4 : IVec S512 32) : IVec S_ 1 :=
  let main_v0 : FVec F S256x1024x1024 .f32 := Host.absf main_arg0
  let main_cst : FVec F S_ .f32 := constant S_ .f32 0x7F800000#32
  let main_v1 : FVec F S256x1024x1024 .f32 := broadcastInDim S256x1024x1024 ![] bcast_S_S256x1024x1024 main_cst
  let main_v2 : IVec S256x1024x1024 1 := cmpf .olt main_v0 main_v1
  let main_c : IVec S_ 1 := constantI S_ 1 1#1
  let main_v3 : IVec S_ 1 := (fun x v => Host.reduce IntOp.andi x v reducesTo_S256x1024x1024_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_c_4 : IVec S_ 32 := constantI S_ 32 0#32
  let main_v14 : IVec S512 32 := broadcastInDim S512 ![] bcast_S_S512 main_c_4
  let main_v15 : IVec S512 1 := cmpi .sge main_arg4 main_v14
  let main_c_5 : IVec S_ 1 := constantI S_ 1 1#1
  fn_part1 (F := F) main_arg4 main_v13 main_v15 main_c_5
-- ==== Kernel.lean ====
abbrev S256x1024x1024 : Shape := ⟨3, ![256, 1024, 1024]⟩
abbrev S512x64 : Shape := ⟨2, ![512, 64]⟩
abbrev S512 : Shape := ⟨1, ![512]⟩
abbrev S_ : Shape := ⟨0, ![]⟩
abbrev S1024 : Shape := ⟨1, ![1024]⟩
abbrev S512x1 : Shape := ⟨2, ![512, 1]⟩
abbrev S1024x1 : Shape := ⟨2, ![1024, 1]⟩
abbrev S256x1024 : Shape := ⟨2, ![256, 1024]⟩
abbrev S16x256x1024 : Shape := ⟨3, ![16, 256, 1024]⟩
abbrev S256x1 : Shape := ⟨2, ![256, 1]⟩
abbrev S16x1024 : Shape := ⟨2, ![16, 1024]⟩
abbrev S16x64x1024 : Shape := ⟨3, ![16, 64, 1024]⟩
abbrev S64x1 : Shape := ⟨2, ![64, 1]⟩
abbrev S1x64x1 : Shape := ⟨3, ![1, 64, 1]⟩
abbrev S512x1024 : Shape := ⟨2, ![512, 1024]⟩
abbrev S512x512 : Shape := ⟨2, ![512, 512]⟩

abbrev nBuf : Space → Nat
  | .hbm => 53
  | .vmem => 7
  | .smem => 0
  | _ => 0

abbrev bufTy : (tb : Table) → Fin (tcTables nBuf tb) → BufTy
  | .hbm, ⟨0, _⟩ => ⟨S256x1024x1024, .f32⟩
  | .hbm, ⟨1, _⟩ => ⟨S512x64, .f32⟩
  | .hbm, ⟨2, _⟩ => ⟨S512x64, .f32⟩
  | .hbm, ⟨3, _⟩ => ⟨S512, .i32⟩
  | .hbm, ⟨4, _⟩ => ⟨S512, .i32⟩
  | .hbm, ⟨5, _⟩ => ⟨S_, .i32⟩
  | .hbm, ⟨6, _⟩ => ⟨S1024, .i32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512x1, .i32⟩
  | .hbm, ⟨15, _⟩ => ⟨S_, .i32⟩
  | .hbm, ⟨16, _⟩ => ⟨S512, .i32⟩
  | .hbm, ⟨17, _⟩ => ⟨S1024, .i32⟩
  | .hbm, ⟨18, _⟩ => ⟨S1024, .f32⟩
  | .hbm, ⟨19, _⟩ => ⟨S1024x1, .f32⟩
  | .hbm, ⟨20, _⟩ => ⟨S256x1024, .f32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S512x1024, .f32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S512x512, .f32⟩
  | .hbm, ⟨39, _⟩ => ⟨S512x64, .f32⟩
  | .hbm, ⟨40, _⟩ => ⟨S512x64, .f32⟩
  | .hbm, ⟨41, _⟩ => ⟨S_, .f32⟩
  | .hbm, ⟨42, _⟩ => ⟨S512, .f32⟩
  | .hbm, ⟨43, _⟩ => ⟨S512x1, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S512x64, .f32⟩
  | .hbm, ⟨49, _⟩ => ⟨S512x64, .f32⟩
  | .hbm, ⟨50, _⟩ => ⟨S512x64, .f32⟩
  | .hbm, ⟨51, _⟩ => ⟨S_, .f32⟩
  | .hbm, ⟨52, _⟩ => ⟨S512, .f32⟩
  | .local _ .vmem, ⟨0, _⟩ => ⟨S16x256x1024, .f32⟩
  | .local _ .vmem, ⟨1, _⟩ => ⟨S16x256x1024, .f32⟩
  | .local _ .vmem, ⟨2, _⟩ => ⟨S256x1, .f32⟩
  | .local _ .vmem, ⟨3, _⟩ => ⟨S256x1, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S256x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_call0_v2 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_mult1 : BitVec 32 :=
  let c0_i32_1 : BitVec 32 := 0#32
  let c64_i32 : BitVec 32 := 64#32
  let v3 : BitVec 32 := Scalar.muli c0_i32_1 c64_i32
  v3
def k0_off1 (c0_i32_1 : BitVec 32) : Fin 3 → Nat :=
  let c0 : Index := 0#32
  let c64_i32 : BitVec 32 := 64#32
  let v3 : BitVec 32 := Scalar.muli c0_i32_1 c64_i32
  let v4 : BitVec 32 := v3
  let v5 : Index := Scalar.indexCast v4
  let c0_2 : Index := 0#32
  ![0, v5.toNat, 0]
def k0_off2 (c0_i32_1 : BitVec 32) : Fin 2 → Nat :=
  let c64_i32 : BitVec 32 := 64#32
  let v3 : BitVec 32 := Scalar.muli c0_i32_1 c64_i32
  let v4 : BitVec 32 := v3
  let v7 : Index := Scalar.indexCast v4
  let c0_3 : Index := 0#32
  ![v7.toNat, 0]
def k0_mult2 : BitVec 32 :=
  let c1_i32 : BitVec 32 := 1#32
  let c64_i32_8 : BitVec 32 := 64#32
  let v19 : BitVec 32 := Scalar.muli c1_i32 c64_i32_8
  v19
def k0_mult3 : BitVec 32 :=
  let c2_i32 : BitVec 32 := 2#32
  let c64_i32_17 : BitVec 32 := 64#32
  let v35 : BitVec 32 := Scalar.muli c2_i32 c64_i32_17
  v35
def k0_mult4 : BitVec 32 :=
  let c3_i32 : BitVec 32 := 3#32
  let c64_i32_26 : BitVec 32 := 64#32
  let v51 : BitVec 32 := Scalar.muli c3_i32 c64_i32_26
  v51
def k0_cond2 (i : grid0.Coords) : BitVec 1 :=
  let arg1 : BitVec 32 := BitVec.ofNat 32 (i 1).val
  let c3_i32_35 : BitVec 32 := 3#32
  let v67 : BitVec 1 := Scalar.cmpi .eq arg1 c3_i32_35
  let v68 : BitVec 32 := Scalar.extui v67
  let c0_i32_36 : BitVec 32 := 0#32
  let v69 : BitVec 1 := Scalar.cmpi .ne v68 c0_i32_36
  v69

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S1024 : S_.BroadcastsInDim S1024 (![] : Fin 0 → Fin S1024.rank)
  bcast_S_S512 : S_.BroadcastsInDim S512 (![] : Fin 0 → Fin S512.rank)
  bcast_S512_S512x1_0 : S512.BroadcastsInDim S512x1 (![0] : Fin 1 → Fin S512x1.rank)
  shapeCasts_S1024_S1024x1 : S1024.ShapeCasts S1024x1
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  h_S16x64x1024 : 0 < S16x64x1024.numel
  h_S64x1 : 0 < S64x1.numel
  shapeCasts_S64x1_S64x1 : S64x1.ShapeCasts S64x1
  shapeCasts_S64x1_S1x64x1 : S64x1.ShapeCasts S1x64x1
  broadcasts_S1x64x1_S16x64x1024 : S1x64x1.Broadcasts S16x64x1024
  reduces_S16x64x1024_S16x1024 : S16x64x1024.Reduces [1] S16x1024
  reducesTo_S512x64_S512_d1 : S512x64.ReducesTo [1] S512
  h_S_ : 0 < S_.numel
  bcast_S_S512x1 : S_.BroadcastsInDim S512x1 (![] : Fin 0 → Fin S512x1.rank)
  bcast_S512x1_S512x64_0_1 : S512x1.BroadcastsInDim S512x64 (![0, 1] : Fin 2 → Fin S512x64.rank)
  scatter_S1024_S512x1_S512_n_0_0_1_wf : ScatterDims.WF S1024 S512x1 S512 [] [0] [0] 1
  gather_S256x1024_S512x1_S512x1024_1_0_n_n_0_1_11024_wf : GatherDims.WF S256x1024 S512x1 S512x1024 [1] [0] [] [0] [] 1 ![1, 1024]
  gather_S512x1024_S512x1_S512x512_0_1_n_n_1_1_5121_wf : GatherDims.WF S512x1024 S512x1 S512x512 [0] [1] [] [1] [] 1 ![512, 1]
  dot_S512x512_S512x64_S512x64_1_0_0_1_n_n_wf : DotDims.WF S512x512 S512x64 S512x64 [1] [0] [0] [1] [] []
  hrank0 : 0 < grid0.rank
  k0_mult1_dvd : 64 ∣ k0_mult1.toNat
  k0_off1_inb : ∀ (r : Fin 4), ∀ a, (k0_off1 (BitVec.ofNat 32 r.val)) a + S16x64x1024.size a ≤ S16x256x1024.size a
  k0_off2_inb : ∀ (r : Fin 4), ∀ a, (k0_off2 (BitVec.ofNat 32 r.val)) a + S64x1.size a ≤ S256x1.size a
  k0_mult2_dvd : 64 ∣ k0_mult2.toNat
  k0_mult3_dvd : 64 ∣ k0_mult3.toNat
  k0_mult4_dvd : 64 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S256x1024x1024.size a
  hwx0_0 : ∀ i : grid0.Coords, EltTy.bits .f32 = 32 ∨ (Rect.block (s := S256x1024x1024) S16x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1024x1.size a
  hwx0_1 : ∀ i : grid0.Coords, EltTy.bits .f32 = 32 ∨ (Rect.block (s := S1024x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S256x1024.size a
  hwx0_2 : ∀ i : grid0.Coords, EltTy.bits .f32 = 32 ∨ (Rect.block (s := S256x1024) S16x1024.size (cc0_transform_2 i) (hinb0_2 i)).WholeWords (EltTy.packing .f32)

variable [Facts₀]

def scatter_S1024_S512x1_S512_n_0_0_1 : ScatterDims S1024 S512x1 S512 where
  updateWindowDims := []
  insertedWindowDims := [0]
  scatterDimsToOperandDims := [0]
  indexVectorDim := 1
  wf := scatter_S1024_S512x1_S512_n_0_0_1_wf
def gather_S256x1024_S512x1_S512x1024_1_0_n_n_0_1_11024 : GatherDims S256x1024 S512x1 S512x1024 where
  offsetDims := [1]
  collapsedSliceDims := [0]
  operandBatchingDims := []
  startIndicesBatchingDims := []
  startIndexMap := [0]
  indexVectorDim := 1
  sliceSizes := ![1, 1024]
  wf := gather_S256x1024_S512x1_S512x1024_1_0_n_n_0_1_11024_wf
def gather_S512x1024_S512x1_S512x512_0_1_n_n_1_1_5121 : GatherDims S512x1024 S512x1 S512x512 where
  offsetDims := [0]
  collapsedSliceDims := [1]
  operandBatchingDims := []
  startIndicesBatchingDims := []
  startIndexMap := [1]
  indexVectorDim := 1
  sliceSizes := ![512, 1]
  wf := gather_S512x1024_S512x1_S512x512_0_1_n_n_1_1_5121_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x1024x1024 : Shape := ⟨3, ![256, 1024, 1024]⟩
abbrev S512x64 : Shape := ⟨2, ![512, 64]⟩
abbrev S512 : Shape := ⟨1, ![512]⟩
abbrev S512x1 : Shape := ⟨2, ![512, 1]⟩
abbrev S1x512 : Shape := ⟨2, ![1, 512]⟩
abbrev S_ : Shape := ⟨0, ![]⟩
abbrev S512x512 : Shape := ⟨2, ![512, 512]⟩
abbrev S512x512x1 : Shape := ⟨3, ![512, 512, 1]⟩
abbrev S512x512x2 : Shape := ⟨3, ![512, 512, 2]⟩
abbrev S512x512x1024 : Shape := ⟨3, ![512, 512, 1024]⟩
abbrev S512x1024 : Shape := ⟨2, ![512, 1024]⟩

abbrev nBuf : Space → Nat
  | .hbm => 52
  | .vmem => 0
  | .smem => 0
  | _ => 0

abbrev bufTy : (tb : Table) → Fin (tcTables nBuf tb) → BufTy
  | .hbm, ⟨0, _⟩ => ⟨S256x1024x1024, .f32⟩
  | .hbm, ⟨1, _⟩ => ⟨S512x64, .f32⟩
  | .hbm, ⟨2, _⟩ => ⟨S512x64, .f32⟩
  | .hbm, ⟨3, _⟩ => ⟨S512, .i32⟩
  | .hbm, ⟨4, _⟩ => ⟨S512, .i32⟩
  | .hbm, ⟨5, _⟩ => ⟨S512x1, .i32⟩
  | .hbm, ⟨6, _⟩ => ⟨S1x512, .i32⟩
  | .hbm, ⟨7, _⟩ => ⟨S_, .i32⟩
  | .hbm, ⟨8, _⟩ => ⟨S512x1, .i32⟩
  | .hbm, ⟨9, _⟩ => ⟨S512x1, .i1⟩
  | .hbm, ⟨10, _⟩ => ⟨S_, .i32⟩
  | .hbm, ⟨11, _⟩ => ⟨S512x1, .i32⟩
  | .hbm, ⟨12, _⟩ => ⟨S512x1, .i32⟩
  | .hbm, ⟨13, _⟩ => ⟨S512x1, .i32⟩
  | .hbm, ⟨14, _⟩ => ⟨S_, .i32⟩
  | .hbm, ⟨15, _⟩ => ⟨S1x512, .i32⟩
  | .hbm, ⟨16, _⟩ => ⟨S1x512, .i1⟩
  | .hbm, ⟨17, _⟩ => ⟨S_, .i32⟩
  | .hbm, ⟨18, _⟩ => ⟨S1x512, .i32⟩
  | .hbm, ⟨19, _⟩ => ⟨S1x512, .i32⟩
  | .hbm, ⟨20, _⟩ => ⟨S1x512, .i32⟩
  | .hbm, ⟨21, _⟩ => ⟨S512x512, .i32⟩
  | .hbm, ⟨22, _⟩ => ⟨S512x512, .i32⟩
  | .hbm, ⟨23, _⟩ => ⟨S512x512x1, .i32⟩
  | .hbm, ⟨24, _⟩ => ⟨S512x512x1, .i32⟩
  | .hbm, ⟨25, _⟩ => ⟨S512x512x2, .i32⟩
  | .hbm, ⟨26, _⟩ => ⟨S512x512x1024, .f32⟩
  | .hbm, ⟨27, _⟩ => ⟨S_, .f32⟩
  | .hbm, ⟨28, _⟩ => ⟨S512x1024, .f32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S512x1, .i32⟩
  | .hbm, ⟨37, _⟩ => ⟨S512x512, .f32⟩
  | .hbm, ⟨38, _⟩ => ⟨S512x64, .f32⟩
  | .hbm, ⟨39, _⟩ => ⟨S512x64, .f32⟩
  | .hbm, ⟨40, _⟩ => ⟨S_, .f32⟩
  | .hbm, ⟨41, _⟩ => ⟨S512, .f32⟩
  | .hbm, ⟨42, _⟩ => ⟨S512x1, .f32⟩
  | .hbm, ⟨43, _⟩ => ⟨S512x1, .f32⟩
  | .hbm, ⟨44, _⟩ => ⟨S_, .f32⟩
  | .hbm, ⟨45, _⟩ => ⟨S512x1, .f32⟩
  | .hbm, ⟨46, _⟩ => ⟨S512x1, .f32⟩
  | .hbm, ⟨47, _⟩ => ⟨S512x64, .f32⟩
  | .hbm, ⟨48, _⟩ => ⟨S512x64, .f32⟩
  | .hbm, ⟨49, _⟩ => ⟨S512x64, .f32⟩
  | .hbm, ⟨50, _⟩ => ⟨S_, .f32⟩
  | .hbm, ⟨51, _⟩ => ⟨S512, .f32⟩
  | _, _ => ⟨S256x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S_S512x1 : S_.BroadcastsInDim S512x1 (![] : Fin 0 → Fin S512x1.rank)
  bcast_S_S1x512 : S_.BroadcastsInDim S1x512 (![] : Fin 0 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  reducesTo_S512x512x1024_S512x1024_d1 : S512x512x1024.ReducesTo [1] S512x1024
  h_S_ : 0 < S_.numel
  bcast_S_S512 : S_.BroadcastsInDim S512 (![] : Fin 0 → Fin S512.rank)
  reducesTo_S512x64_S512_d1 : S512x64.ReducesTo [1] S512
  bcast_S512x1_S512x64_0_1 : S512x1.BroadcastsInDim S512x64 (![0, 1] : Fin 2 → Fin S512x64.rank)
  gather_S256x1024x1024_S512x512x2_S512x512x1024_2_01_n_n_01_2_111024_wf : GatherDims.WF S256x1024x1024 S512x512x2 S512x512x1024 [2] [0, 1] [] [0, 1] [] 2 ![1, 1, 1024]
  gather_S512x1024_S512x1_S512x512_0_1_n_n_1_1_5121_wf : GatherDims.WF S512x1024 S512x1 S512x512 [0] [1] [] [1] [] 1 ![512, 1]
  dot_S512x512_S512x64_S512x64_1_0_0_1_n_n_wf : DotDims.WF S512x512 S512x64 S512x64 [1] [0] [0] [1] [] []

variable [Facts₀]

def gather_S256x1024x1024_S512x512x2_S512x512x1024_2_01_n_n_01_2_111024 : GatherDims S256x1024x1024 S512x512x2 S512x512x1024 where
  offsetDims := [2]
  collapsedSliceDims := [0, 1]
  operandBatchingDims := []
  startIndicesBatchingDims := []
  startIndexMap := [0, 1]
  indexVectorDim := 2
  sliceSizes := ![1, 1, 1024]
  wf := gather_S256x1024x1024_S512x512x2_S512x512x1024_2_01_n_n_01_2_111024_wf
def gather_S512x1024_S512x1_S512x512_0_1_n_n_1_1_5121 : GatherDims S512x1024 S512x1 S512x512 where
  offsetDims := [0]
  collapsedSliceDims := [1]
  operandBatchingDims := []
  startIndicesBatchingDims := []
  startIndexMap := [1]
  indexVectorDim := 1
  sliceSizes := ![512, 1]
  wf := gather_S512x1024_S512x1_S512x512_0_1_n_n_1_1_5121_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

class Facts : Prop extends Facts₀ where

variable [Facts]
-- ==== Proof.Pieces.lean ====
/-
  What one grid point of the kernel leaves in its accumulator, as a value.

  The body is: an optional reset of the [16, 1024] accumulator to zero (first point of a row of the grid), then four
  updates, one per 64-row chunk q of the point's [16, 256, 1024] block t and [256, 1] block w,
      acc ← acc + Σ_j t[:, 64q + j, :] · w[64q + j, 0],
  each stored whole into the accumulator and read back whole; at the last point of a row of the grid the accumulator is
  copied whole into the output block. So whatever the case, the accumulator (and, in the last case, the output block)
  ends at the four updates applied in order to what it held before (zero after a reset).
-/
import proofs.«426038_j14766097564250_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Chunk q (rows 64q … 64q + 63 of the middle axis) of a [16, 256, 1024] block. -/
def tchunk0 (x0 : Vec F S16x256x1024 .f32) : Vec F S16x64x1024 .f32 :=
  View.ld x0 (Rect.unit (s := S16x256x1024) ![0, 0, 0] S16x64x1024.size (by decide))
def tchunk1 (x0 : Vec F S16x256x1024 .f32) : Vec F S16x64x1024 .f32 :=
  View.ld x0 (Rect.unit (s := S16x256x1024) ![0, 64, 0] S16x64x1024.size (by decide))
def tchunk2 (x0 : Vec F S16x256x1024 .f32) : Vec F S16x64x1024 .f32 :=
  View.ld x0 (Rect.unit (s := S16x256x1024) ![0, 128, 0] S16x64x1024.size (by decide))
def tchunk3 (x0 : Vec F S16x256x1024 .f32) : Vec F S16x64x1024 .f32 :=
  View.ld x0 (Rect.unit (s := S16x256x1024) ![0, 192, 0] S16x64x1024.size (by decide))

/-- Chunk q of a [256, 1] weight block. -/
def wchunk0 (x1 : Vec F S256x1 .f32) : Vec F S64x1 .f32 :=
  View.ld x1 (Rect.unit (s := S256x1) ![0, 0] S64x1.size (by decide))
def wchunk1 (x1 : Vec F S256x1 .f32) : Vec F S64x1 .f32 :=
  View.ld x1 (Rect.unit (s := S256x1) ![64, 0] S64x1.size (by decide))
def wchunk2 (x1 : Vec F S256x1 .f32) : Vec F S64x1 .f32 :=
  View.ld x1 (Rect.unit (s := S256x1) ![128, 0] S64x1.size (by decide))
def wchunk3 (x1 : Vec F S256x1 .f32) : Vec F S64x1 .f32 :=
  View.ld x1 (Rect.unit (s := S256x1) ![192, 0] S64x1.size (by decide))

/-- The four updates of one point, in order, applied to what the accumulator held. -/
def acc4 (x0 : Vec F S16x256x1024 .f32) (x1 : Vec F S256x1 .f32) (s : Vec F S16x1024 .f32) : Vec F S16x1024 .f32 :=
  k0_pay6 (tchunk3 x0) (wchunk3 x1)
    (k0_pay5 (tchunk2 x0) (wchunk2 x1)
      (k0_pay4 (k0_pay3 (tchunk1 x0) (wchunk1 x1)
        (k0_pay2 (tchunk0 x0) (wchunk0 x1) s))))

/-- A point in the middle of a row of the grid (no reset, no copy out): the accumulator ends at the four updates of what it held. -/
theorem sout_B (c : Dev nD) (i : grid0.Coords) (arg2 : Memref sig .tc .vmem S16x256x1024 .f32) (harg2 : arg2.IsWhole) (arg3 : Memref sig .tc .vmem S256x1 .f32) (harg3 : arg3.IsWhole) (arg4 : Memref sig .tc .vmem S16x1024 .f32) (harg4 : arg4.IsWhole) (arg5 : Memref sig .tc .vmem S16x1024 .f32) (harg5 : arg5.IsWhole) (hc0 : ¬cond0_0 i) (hc1 : ¬cond0_1 i)
    (x0 : Vec F S16x256x1024 .f32) (x1 : Vec F S256x1 .f32) (xs0 : Vec F S16x1024 .f32) :
    sout0_B_0 c i arg2 harg2 arg3 harg3 arg4 harg4 arg5 harg5 hc0 hc1 x0 x1 xs0 = acc4 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_cons_unit_zero (S := S16x1024) hz]
  simp only [View.readCov_cons_toLoadRect, View.readAt_eq_ld, harg2.read_unread, harg3.read_unread, harg5.read_unread,
    View.ld_unit_zero (S := S16x1024) hz]
  rfl

/-- The last point of a row of the grid: the same for the accumulator, -/
theorem sout_C (c : Dev nD) (i : grid0.Coords) (arg2 : Memref sig .tc .vmem S16x256x1024 .f32) (harg2 : arg2.IsWhole) (arg3 : Memref sig .tc .vmem S256x1 .f32) (harg3 : arg3.IsWhole) (arg4 : Memref sig .tc .vmem S16x1024 .f32) (harg4 : arg4.IsWhole) (arg5 : Memref sig .tc .vmem S16x1024 .f32) (harg5 : arg5.IsWhole) (hc0 : ¬cond0_0 i) (hc1 : cond0_1 i)
    (x0 : Vec F S16x256x1024 .f32) (x1 : Vec F S256x1 .f32) (xs0 : Vec F S16x1024 .f32) :
    sout0_C_0 c i arg2 harg2 arg3 harg3 arg4 harg4 arg5 harg5 hc0 hc1 x0 x1 xs0 = acc4 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_cons_unit_zero (S := S16x1024) hz]
  simp only [View.readCov_cons_toLoadRect, View.readAt_eq_ld, harg2.read_unread, harg3.read_unread, harg5.read_unread,
    View.ld_unit_zero (S := S16x1024) hz]
  rfl

/-- and the output block receives a copy of it. -/
theorem out_C (c : Dev nD) (i : grid0.Coords) (arg2 : Memref sig .tc .vmem S16x256x1024 .f32) (harg2 : arg2.IsWhole) (arg3 : Memref sig .tc .vmem S256x1 .f32) (harg3 : arg3.IsWhole) (arg4 : Memref sig .tc .vmem S16x1024 .f32) (harg4 : arg4.IsWhole) (arg5 : Memref sig .tc .vmem S16x1024 .f32) (harg5 : arg5.IsWhole) (hc0 : ¬cond0_0 i) (hc1 : cond0_1 i)
    (x0 : Vec F S16x256x1024 .f32) (x1 : Vec F S256x1 .f32) (xs0 : Vec F S16x1024 .f32) :
    out0_C_2 c i arg2 harg2 arg3 harg3 arg4 harg4 arg5 harg5 hc0 hc1 x0 x1 xs0 = acc4 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_cons_unit_zero (S := S16x1024) hz]
  simp only [View.readCov_cons_toLoadRect, View.readAt_eq_ld, harg2.read_unread, harg3.read_unread, harg5.read_unread,
    View.ld_unit_zero (S := S16x1024) hz]
  rfl

/-- The first point of a row of the grid: the accumulator is reset to zero first. -/
theorem sout_A (c : Dev nD) (i : grid0.Coords) (arg2 : Memref sig .tc .vmem S16x256x1024 .f32) (harg2 : arg2.IsWhole) (arg3 : Memref sig .tc .vmem S256x1 .f32) (harg3 : arg3.IsWhole) (arg4 : Memref sig .tc .vmem S16x1024 .f32) (harg4 : arg4.IsWhole) (arg5 : Memref sig .tc .vmem S16x1024 .f32) (harg5 : arg5.IsWhole) (hc0 : cond0_0 i) (hc1 : ¬cond0_1 i)
    (x0 : Vec F S16x256x1024 .f32) (x1 : Vec F S256x1 .f32) :
    sout0_A_0 c i arg2 harg2 arg3 harg3 arg4 harg4 arg5 harg5 hc0 hc1 x0 x1 = acc4 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S16x1024) hz]
  simp only [View.readCov_cons_toLoadRect, View.readAt_eq_ld, harg2.read_unread, harg3.read_unread,
    View.ld_unit_zero (S := S16x1024) hz]
  rfl

end Cert.KernelIdeal.Pieces

end
-- ==== Proof.Blocks.lean ====
/-
  The kernel's input blocks as restrictions of the arrays the region finds.

  At grid point t = 4·i + j (i the row-tile, j the tile of the contracted axis) the first window's block is
  T[16 i … 16 i + 15, 256 j … 256 j + 255, :] and the second's is w[256 j … 256 j + 255, :]; chunk q of either is the
  64 rows from 64 q on.
-/
import proofs.«426038_j14766097564250_2_alg».proof.Proof.Gen.KernelIdeal.Frame
import proofs.«426038_j14766097564250_2_alg».proof.Proof.Pieces
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-- The blocks and the arrays at their literal types. -/
abbrev tblk (c : Dev nD) (t : Fin cfg0.N) : Vec F S16x256x1024 .f32 := iblk m c 0 t
abbrev wblk (c : Dev nD) (t : Fin cfg0.N) : Vec F S256x1 .f32 := iblk m c 1 t
abbrev tarr (c : Dev nD) : Vec F S256x1024x1024 .f32 := V m c main_arg0
abbrev warr (c : Dev nD) : Vec F S1024x1 .f32 := V m c main_v10

/-- The windows' block indices over the grid: point t = 4 i + j reads block (i, j, 0) of T and block (j, 0) of w. -/
theorem idxT : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
theorem idxW : ∀ t : Fin cfg0.N, win0_1.index t (0 : Fin 2) = t.val % 4 ∧ win0_1.index t (1 : Fin 2) = 0 :=
  (by decide +kernel : ∀ t : Fin grid0.N, _)

theorem tblk_apply (c : Dev nD) (t : Fin cfg0.N) (r : Fin 16) (k : Fin 256) (cc : Fin 1024)
    (u : Fin 256) (hu : u.val = 16 * (t.val / 4) + r.val) (kk : Fin 1024) (hk : kk.val = 256 * (t.val % 4) + k.val) :
    tblk m c t (ix3 r k cc) = tarr m c (ix3 u kk cc) := by
  unfold tblk iblk
  rw [View.read_apply]
  show V m c main_arg0 _ = V m c main_arg0 _
  refine congrArg (V m c main_arg0) ?_
  funext a
  refine Fin.ext ?_
  obtain ⟨h0, h1, h2⟩ := idxT t
  match a with
  | ⟨0, _⟩ => show win0_0.index t (0 : Fin 3) * 16 + 1 * r.val = u.val; rw [h0, hu]; omega
  | ⟨1, _⟩ => show win0_0.index t (1 : Fin 3) * 256 + 1 * k.val = kk.val; rw [h1, hk]; omega
  | ⟨2, _⟩ => show win0_0.index t (2 : Fin 3) * 1024 + 1 * cc.val = cc.val; rw [h2]; omega

theorem wblk_apply (c : Dev nD) (t : Fin cfg0.N) (k : Fin 256) (kk : Fin 1024) (hk : kk.val = 256 * (t.val % 4) + k.val) :
    wblk m c t (ix2 k (0 : Fin 1)) = warr m c (ix2 kk (0 : Fin 1)) := by
  unfold wblk iblk
  rw [View.read_apply]
  show V m c main_v10 _ = V m c main_v10 _
  refine congrArg (V m c main_v10) ?_
  funext a
  refine Fin.ext ?_
  obtain ⟨h0, h1⟩ := idxW t
  match a with
  | ⟨0, _⟩ => show win0_1.index t (0 : Fin 2) * 256 + 1 * k.val = kk.val; rw [h0, hk]; omega
  | ⟨1, _⟩ => show win0_1.index t (1 : Fin 2) * 1 + 1 * 0 = 0; rw [h1]

end Cert.KernelIdeal.Blocks

end
-- ==== Proof.Steps.lean ====
/-
  What the accumulator (and the output block) hold after each grid point, as the four updates of the point's blocks
  applied to what the point before left (zero at the first point of a row of the grid).
-/
import proofs.«426038_j14766097564250_2_alg».proof.Proof.Gen.KernelIdeal.Frame
import proofs.«426038_j14766097564250_2_alg».proof.Proof.Pieces
import proofs.«426038_j14766097564250_2_alg».proof.Proof.Blocks

noncomputable section

open Idealize.ShloMosaic Idealize.ShloMosaic.TcCoe Idealize.SL.Sem Idealize.ShloMosaic.ValueIdx

namespace Cert.KernelIdeal.Steps

open Cert.KernelIdeal Cert.KernelIdeal.Gen Cert.KernelIdeal.Pieces Cert.KernelIdeal.Blocks

variable {F : FTy → Type} [FloatOps F]
variable (m : (ℓ : Loc nD τ sig) → Buf (Elt F) ℓ)

/-- First point of a row of the grid: the updates of zero. -/
theorem scr_A (c : Dev nD) (t : Fin cfg0.N) (h0 : t.val % 4 = 0) (h1 : ¬t.val % 4 = 3) :
    (outsAt0 m c t.val t.isLt).2 = acc4 (tblk m c t) (wblk m c t) (k0_pay1 (F := F)) := by
  rw [outsAt0_A m c t h0 h1]
  dsimp only
  exact sout_A (F := F) c (grid0.coords t) (ms0_0 t) (hs0_0 t) (ms0_1 t) (hs0_1 t) (ms0_2 t) (hs0_2 t) scM0_0
    (Memref.isWhole_whole _) _ _ (tblk m c t) (wblk m c t)

/-- A middle point: the updates of what the point before left. -/
theorem scr_B (c : Dev nD) (t : Fin cfg0.N) (h0 : ¬t.val % 4 = 0) (h1 : ¬t.val % 4 = 3) :
    (outsAt0 m c t.val t.isLt).2
      = acc4 (tblk m c t) (wblk m c t) (outsAt0 m c (t.val - 1) (Nat.lt_of_le_of_lt (Nat.sub_le _ _) t.isLt)).2 := by
  rw [outsAt0_B m c t h0 h1]
  dsimp only
  exact sout_B (F := F) c (grid0.coords t) (ms0_0 t) (hs0_0 t) (ms0_1 t) (hs0_1 t) (ms0_2 t) (hs0_2 t) scM0_0
    (Memref.isWhole_whole _) _ _ (tblk m c t) (wblk m c t) _

/-- The last point of a row of the grid: the same, -/
theorem scr_C (c : Dev nD) (t : Fin cfg0.N) (h0 : ¬t.val % 4 = 0) (h1 : t.val % 4 = 3) :
    (outsAt0 m c t.val t.isLt).2
      = acc4 (tblk m c t) (wblk m c t) (outsAt0 m c (t.val - 1) (Nat.lt_of_le_of_lt (Nat.sub_le _ _) t.isLt)).2 := by
  rw [outsAt0_C m c t h0 h1]
  dsimp only
  exact sout_C (F := F) c (grid0.coords t) (ms0_0 t) (hs0_0 t) (ms0_1 t) (hs0_1 t) (ms0_2 t) (hs0_2 t) scM0_0
    (Memref.isWhole_whole _) _ _ (tblk m c t) (wblk m c t) _

/-- and the output block holds the same. -/
theorem out_C_eq (c : Dev nD) (t : Fin cfg0.N) (h0 : ¬t.val % 4 = 0) (h1 : t.val % 4 = 3) :
    (outsAt0 m c t.val t.isLt).1
      = acc4 (tblk m c t) (wblk m c t) (outsAt0 m c (t.val - 1) (Nat.lt_of_le_of_lt (Nat.sub_le _ _) t.isLt)).2 := by
  rw [outsAt0_C m c t h0 h1]
  dsimp only
  exact out_C (F := F) c (grid0.coords t) (ms0_0 t) (hs0_0 t) (ms0_1 t) (hs0_1 t) (ms0_2 t) (hs0_2 t) scM0_0
    (Memref.isWhole_whole _) _ _ (tblk m c t) (wblk m c t) _

end Cert.KernelIdeal.Steps

end
-- ==== Proof.AccAt.lean ====
/-
  One update of the accumulator, read at an index over the extended reals:
      (acc + Σ_j t[:, j, :] · w[j, 0]) (r, c) = acc (r, c) + Σ_{j < 64} t (r, j, c) · w (j, 0),
  the weight column broadcast along the rows and the lanes, the sum taken over the middle axis.
-/
import proofs.«426038_j14766097564250_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.AccAt

open Cert.KernelIdeal Cert.KernelIdeal.Gen

/-- A sum over the middle axis of a [16, 64, 1024] array, at (r, c). -/
theorem mid_sum (src : FVec Ideal S16x64x1024 .f32) (h : S16x64x1024.Reduces [1] S16x1024) (hφ : FKind.Formats .f32)
    (hacc : (0x00000000#32 : BitVec 32) = FKind.add.neutral .f32 hφ) (r : Fin 16) (c : Fin 1024) :
    multiReduction .add [1] S16x1024 src 0x00000000#32 h hφ hacc (ix2 r c) = ∑ j : Fin 64, src (ix3 r j c) := by
  refine (Ideal.multiReduction_add_single src 0x00000000#32 h hφ hacc (ix2 r c)).trans ?_
  refine Finset.sum_congr rfl fun j _ => congrArg src ?_
  funext a
  refine Fin.ext ?_
  match a with
  | ⟨0, _⟩ => rfl
  | ⟨1, _⟩ => rfl
  | ⟨2, _⟩ => rfl

/-- The weight column [64, 1], recast to [1, 64, 1] and broadcast to [16, 64, 1024], at (r, j, c) is the column at (j, 0). -/
theorem wcol_apply (w : Vec Ideal S64x1 .f32) (h1 : S64x1.ShapeCasts S64x1) (h2 : S64x1.ShapeCasts S1x64x1)
    (h3 : S1x64x1.Broadcasts S16x64x1024) (r : Fin 16) (j : Fin 64) (c : Fin 1024) :
    broadcastTo S16x64x1024 (shapeCast S1x64x1 (shapeCast S64x1 w h1) h2) h3 (ix3 r j c) = w (ix2 j (0 : Fin 1)) := by
  rw [shapeCast_self]
  refine (broadcastTo_apply _ h3 (ix3 r j c) (ix3 (0 : Fin 1) j (0 : Fin 1)) (fun a => ?_)).trans ?_
  · match a with
    | ⟨0, _⟩ => rfl
    | ⟨1, _⟩ => rfl
    | ⟨2, _⟩ => rfl
  · refine shapeCast_apply w h2 (ix3 (0 : Fin 1) j (0 : Fin 1)) (ix2 j (0 : Fin 1)) ?_
    simp [Shape.rowMajor_val_two, Shape.rowMajor_val_three]

/-- ONE UPDATE at (r, c). -/
theorem upd_apply (t : Vec Ideal S16x64x1024 .f32) (w : Vec Ideal S64x1 .f32) (s : Vec Ideal S16x1024 .f32)
    (r : Fin 16) (c : Fin 1024) :
    k0_pay2 (F := Ideal) t w s (ix2 r c) = s (ix2 r c) + ∑ j : Fin 64, t (ix3 r j c) * w (ix2 j (0 : Fin 1)) := by
  unfold k0_pay2
  rw [shapeCast_self]
  refine (congrArg (s (ix2 r c) + ·) ((mid_sum _ _ _ _ r c).trans (Finset.sum_congr rfl fun j _ => ?_)))
  exact congrArg (t (ix3 r j c) * ·) (wcol_apply w _ _ _ r j c)

end Cert.KernelIdeal.AccAt

end
-- ==== Proof.SumChunks.lean ====
/-
  Sums over consecutive runs of natural numbers: four runs of 64 make one run of 256, and a run appended to a
  prefix makes the longer prefix. The summands are extended reals; only commutativity and associativity of + are used.
-/
import Mathlib.Data.EReal.Basic
import Mathlib.Algebra.BigOperators.Fin
import Mathlib.Algebra.BigOperators.Intervals

noncomputable section

open scoped BigOperators

namespace Cert.SumChunks

/-- A run of 64 terms from a + b, indexed by Fin 64, as a sum over a range. -/
theorem fin_run (g : ℕ → EReal) (a b : ℕ) : ∑ j : Fin 64, g (a + (b + j.val)) = ∑ k ∈ Finset.range 64, g (a + (b + k)) :=
  Fin.sum_univ_eq_sum_range (fun k => g (a + (b + k))) 64

/-- Four consecutive runs of 64 are one run of 256. -/
theorem four_runs (g : ℕ → EReal) (a : ℕ) (s : EReal) :
    s + (∑ j : Fin 64, g (a + (0 + j.val))) + (∑ j : Fin 64, g (a + (64 + j.val))) + (∑ j : Fin 64, g (a + (128 + j.val)))
        + (∑ j : Fin 64, g (a + (192 + j.val)))
      = s + ∑ k ∈ Finset.range 256, g (a + k) := by
  rw [fin_run, fin_run, fin_run, fin_run]
  have e : ∑ k ∈ Finset.range 256, g (a + k)
      = (∑ k ∈ Finset.range 64, g (a + (0 + k))) + (∑ k ∈ Finset.range 64, g (a + (64 + k)))
        + (∑ k ∈ Finset.range 64, g (a + (128 + k))) + (∑ k ∈ Finset.range 64, g (a + (192 + k))) := by
    rw [show (256 : ℕ) = 64 + 64 + 64 + 64 from rfl, Finset.sum_range_add, Finset.sum_range_add, Finset.sum_range_add]
    refine congrArg₂ (· + ·) (congrArg₂ (· + ·) (congrArg₂ (· + ·) ?_ ?_) ?_) ?_
    · exact Finset.sum_congr rfl fun k _ => congrArg g (by omega)
    · exact Finset.sum_congr rfl fun k _ => congrArg g (by omega)
    · exact Finset.sum_congr rfl fun k _ => congrArg g (by omega)
    · exact Finset.sum_congr rfl fun k _ => congrArg g (by omega)
  rw [e]
  simp only [add_assoc]

/-- A run appended to a prefix. -/
theorem prefix_run (g : ℕ → EReal) (a n : ℕ) :
    (∑ k ∈ Finset.range a, g k) + ∑ k ∈ Finset.range n, g (a + k) = ∑ k ∈ Finset.range (a + n), g k :=
  (Finset.sum_range_add g a n).symm

end Cert.SumChunks

end
-- ==== Proof.Inv.lean ====
/-
  The accumulator after each grid point, in closed form over the extended reals.

  With T the [256, 1024, 1024] array and w the [1024, 1] weight column as the region finds them, after the point
  t = 4 i + j the accumulator holds, at (r, c), the partial sum over the first 256 (j + 1) indices k of
  T (16 i + r, k, c) · w (k, 0): each point adds its 256 terms, four runs of 64, to what the point before left, and the
  first point of a row of the grid starts from zero. By induction on the point.
-/
import proofs.«426038_j14766097564250_2_alg».proof.Proof.Steps
import proofs.«426038_j14766097564250_2_alg».proof.Proof.AccAt
import proofs.«426038_j14766097564250_2_alg».proof.Proof.SumChunks

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Pieces Cert.KernelIdeal.Blocks Cert.KernelIdeal.Steps

variable (m : (ℓ : Loc nD τ sig) → Buf (Elt Ideal) ℓ)

/-- Term k of row u's weighted sum at lane c: T (u, k, c) · w (k, 0) (zero past the axis' end). -/
def term (T : Vec Ideal S256x1024x1024 .f32) (W : Vec Ideal S1024x1 .f32) (u : Fin 256) (cc : Fin 1024) (k : ℕ) : EReal :=
  if h : k < 1024 then T (ix3 u ⟨k, h⟩ cc) * W (ix2 ⟨k, h⟩ (0 : Fin 1)) else 0

/-- The chunks of a block, at an index. -/
theorem tchunk0_apply (x0 : Vec Ideal S16x256x1024 .f32) (r : Fin 16) (j : Fin 64) (cc : Fin 1024) :
    tchunk0 x0 (ix3 r j cc) = x0 (ix3 r ⟨0 + j.val, by omega⟩ cc) := by
  unfold tchunk0
  exact congrArg x0 (funext fun a => Fin.ext (by
    match a with
    | ⟨0, _⟩ => show 0 + 1 * r.val = r.val; omega
    | ⟨1, _⟩ => show 0 + 1 * j.val = 0 + j.val; omega
    | ⟨2, _⟩ => show 0 + 1 * cc.val = cc.val; omega))
theorem tchunk1_apply (x0 : Vec Ideal S16x256x1024 .f32) (r : Fin 16) (j : Fin 64) (cc : Fin 1024) :
    tchunk1 x0 (ix3 r j cc) = x0 (ix3 r ⟨64 + j.val, by omega⟩ cc) := by
  unfold tchunk1
  exact congrArg x0 (funext fun a => Fin.ext (by
    match a with
    | ⟨0, _⟩ => show 0 + 1 * r.val = r.val; omega
    | ⟨1, _⟩ => show 64 + 1 * j.val = 64 + j.val; omega
    | ⟨2, _⟩ => show 0 + 1 * cc.val = cc.val; omega))
theorem tchunk2_apply (x0 : Vec Ideal S16x256x1024 .f32) (r : Fin 16) (j : Fin 64) (cc : Fin 1024) :
    tchunk2 x0 (ix3 r j cc) = x0 (ix3 r ⟨128 + j.val, by omega⟩ cc) := by
  unfold tchunk2
  exact congrArg x0 (funext fun a => Fin.ext (by
    match a with
    | ⟨0, _⟩ => show 0 + 1 * r.val = r.val; omega
    | ⟨1, _⟩ => show 128 + 1 * j.val = 128 + j.val; omega
    | ⟨2, _⟩ => show 0 + 1 * cc.val = cc.val; omega))
theorem tchunk3_apply (x0 : Vec Ideal S16x256x1024 .f32) (r : Fin 16) (j : Fin 64) (cc : Fin 1024) :
    tchunk3 x0 (ix3 r j cc) = x0 (ix3 r ⟨192 + j.val, by omega⟩ cc) := by
  unfold tchunk3
  exact congrArg x0 (funext fun a => Fin.ext (by
    match a with
    | ⟨0, _⟩ => show 0 + 1 * r.val = r.val; omega
    | ⟨1, _⟩ => show 192 + 1 * j.val = 192 + j.val; omega
    | ⟨2, _⟩ => show 0 + 1 * cc.val = cc.val; omega))
theorem wchunk0_apply (x1 : Vec Ideal S256x1 .f32) (j : Fin 64) :
    wchunk0 x1 (ix2 j (0 : Fin 1)) = x1 (ix2 ⟨0 + j.val, by omega⟩ (0 : Fin 1)) := by
  unfold wchunk0
  exact congrArg x1 (funext fun a => Fin.ext (by
    match a with
    | ⟨0, _⟩ => show 0 + 1 * j.val = 0 + j.val; omega
    | ⟨1, _⟩ => rfl))
theorem wchunk1_apply (x1 : Vec Ideal S256x1 .f32) (j : Fin 64) :
    wchunk1 x1 (ix2 j (0 : Fin 1)) = x1 (ix2 ⟨64 + j.val, by omega⟩ (0 : Fin 1)) := by
  unfold wchunk1
  exact congrArg x1 (funext fun a => Fin.ext (by
    match a with
    | ⟨0, _⟩ => show 64 + 1 * j.val = 64 + j.val; omega
    | ⟨1, _⟩ => rfl))
theorem wchunk2_apply (x1 : Vec Ideal S256x1 .f32) (j : Fin 64) :
    wchunk2 x1 (ix2 j (0 : Fin 1)) = x1 (ix2 ⟨128 + j.val, by omega⟩ (0 : Fin 1)) := by
  unfold wchunk2
  exact congrArg x1 (funext fun a => Fin.ext (by
    match a with
    | ⟨0, _⟩ => show 128 + 1 * j.val = 128 + j.val; omega
    | ⟨1, _⟩ => rfl))
theorem wchunk3_apply (x1 : Vec Ideal S256x1 .f32) (j : Fin 64) :
    wchunk3 x1 (ix2 j (0 : Fin 1)) = x1 (ix2 ⟨192 + j.val, by omega⟩ (0 : Fin 1)) := by
  unfold wchunk3
  exact congrArg x1 (funext fun a => Fin.ext (by
    match a with
    | ⟨0, _⟩ => show 192 + 1 * j.val = 192 + j.val; omega
    | ⟨1, _⟩ => rfl))

/-- The four updates of one point at (r, c): four runs of 64 products added, in order, to what was there. -/
theorem acc4_apply (x0 : Vec Ideal S16x256x1024 .f32) (x1 : Vec Ideal S256x1 .f32) (s : Vec Ideal S16x1024 .f32)
    (r : Fin 16) (cc : Fin 1024) :
    acc4 (F := Ideal) x0 x1 s (ix2 r cc)
      = s (ix2 r cc)
        + (∑ j : Fin 64, x0 (ix3 r ⟨0 + j.val, by omega⟩ cc) * x1 (ix2 ⟨0 + j.val, by omega⟩ (0 : Fin 1)))
        + (∑ j : Fin 64, x0 (ix3 r ⟨64 + j.val, by omega⟩ cc) * x1 (ix2 ⟨64 + j.val, by omega⟩ (0 : Fin 1)))
        + (∑ j : Fin 64, x0 (ix3 r ⟨128 + j.val, by omega⟩ cc) * x1 (ix2 ⟨128 + j.val, by omega⟩ (0 : Fin 1)))
        + (∑ j : Fin 64, x0 (ix3 r ⟨192 + j.val, by omega⟩ cc) * x1 (ix2 ⟨192 + j.val, by omega⟩ (0 : Fin 1))) := by
  unfold acc4
  show k0_pay2 (F := Ideal) (tchunk3 x0) (wchunk3 x1) (k0_pay2 (F := Ideal) (tchunk2 x0) (wchunk2 x1)
    (k0_pay2 (F := Ideal) (tchunk1 x0) (wchunk1 x1) (k0_pay2 (F := Ideal) (tchunk0 x0) (wchunk0 x1) s))) (ix2 r cc) = _
  rw [AccAt.upd_apply, AccAt.upd_apply, AccAt.upd_apply, AccAt.upd_apply]
  simp only [tchunk0_apply, tchunk1_apply, tchunk2_apply, tchunk3_apply, wchunk0_apply, wchunk1_apply, wchunk2_apply,
    wchunk3_apply]

/-- A product of the point's blocks is a term of the row's sum. -/
theorem prod_term (c : Dev nD) (t : Fin cfg0.N) (r : Fin 16) (cc : Fin 1024) (u : Fin 256)
    (hu : u.val = 16 * (t.val / 4) + r.val) (k : Fin 256) :
    tblk m c t (ix3 r k cc) * wblk m c t (ix2 k (0 : Fin 1))
      = term (tarr m c) (warr m c) u cc (256 * (t.val % 4) + k.val) := by
  have hk : 256 * (t.val % 4) + k.val < 1024 := by have := k.isLt; omega
  rw [tblk_apply m c t r k cc u hu ⟨_, hk⟩ rfl, wblk_apply m c t k ⟨_, hk⟩ rfl]
  unfold term
  rw [dif_pos hk]

/-- One point adds its run of 256 terms. -/
theorem point_apply (c : Dev nD) (t : Fin cfg0.N) (s : Vec Ideal S16x1024 .f32) (r : Fin 16) (cc : Fin 1024) (u : Fin 256)
    (hu : u.val = 16 * (t.val / 4) + r.val) :
    acc4 (F := Ideal) (tblk m c t) (wblk m c t) s (ix2 r cc)
      = s (ix2 r cc) + ∑ k ∈ Finset.range 256, term (tarr m c) (warr m c) u cc (256 * (t.val % 4) + k) := by
  rw [acc4_apply]
  simp only [prod_term m c t r cc u hu]
  exact SumChunks.four_runs (term (tarr m c) (warr m c) u cc) (256 * (t.val % 4)) (s (ix2 r cc))

/-- The reset stores zero. -/
theorem zero_apply (j : S16x1024.Idx) : k0_pay1 (F := Ideal) j = 0 := by
  unfold k0_pay1
  rw [shapeCast_self]
  exact Ideal.ofBits_zero_f32

/-- THE ACCUMULATOR AFTER POINT n, at (r, c): the first 256 (n mod 4 + 1) terms of row 16 (n / 4) + r. -/
theorem scratch_eq (c : Dev nD) : ∀ (n : ℕ) (h : n < cfg0.N) (r : Fin 16) (cc : Fin 1024) (u : Fin 256)
    (hu : u.val = 16 * (n / 4) + r.val),
    (outsAt0 m c n h).2 (ix2 r cc) = ∑ k ∈ Finset.range (256 * (n % 4 + 1)), term (tarr m c) (warr m c) u cc k
  | 0, h, r, cc, u, hu => by
    refine (congrFun (scr_A m c ⟨0, h⟩ rfl (show ¬(0 : ℕ) % 4 = 3 by decide)) (ix2 r cc)).trans ?_
    rw [point_apply m c ⟨0, h⟩ _ r cc u hu, zero_apply, zero_add]
    exact Finset.sum_congr rfl fun k _ => congrArg _ (by show 256 * (0 % 4) + k = k; omega)
  | n + 1, h, r, cc, u, hu => by
    by_cases h0 : (n + 1) % 4 = 0
    · have h1 : ¬(n + 1) % 4 = 3 := by omega
      refine (congrFun (scr_A m c ⟨n + 1, h⟩ h0 h1) (ix2 r cc)).trans ?_
      rw [point_apply m c ⟨n + 1, h⟩ _ r cc u hu, zero_apply, zero_add]
      show ∑ k ∈ Finset.range 256, term _ _ u cc (256 * ((n + 1) % 4) + k) = _
      rw [h0]
      exact Finset.sum_congr rfl fun k _ => congrArg _ (by omega)
    · have hu' : u.val = 16 * (n / 4) + r.val := by omega
      have ih := scratch_eq c n (Nat.lt_of_succ_lt h) r cc u hu'
      have hstep : (outsAt0 m c (n + 1) h).2 (ix2 r cc)
          = (outsAt0 m c n (Nat.lt_of_succ_lt h)).2 (ix2 r cc)
            + ∑ k ∈ Finset.range 256, term (tarr m c) (warr m c) u cc (256 * ((n + 1) % 4) + k) := by
        by_cases h1 : (n + 1) % 4 = 3
        · refine (congrFun (scr_C m c ⟨n + 1, h⟩ h0 h1) (ix2 r cc)).trans ?_
          exact point_apply m c ⟨n + 1, h⟩ _ r cc u hu
        · refine (congrFun (scr_B m c ⟨n + 1, h⟩ h0 h1) (ix2 r cc)).trans ?_
          exact point_apply m c ⟨n + 1, h⟩ _ r cc u hu
      rw [hstep, ih, show 256 * (n % 4 + 1) = 256 * ((n + 1) % 4) from by omega, SumChunks.prefix_run]
      exact congrArg (fun N => ∑ k ∈ Finset.range N, term (tarr m c) (warr m c) u cc k) (by omega)

/-- The whole row sum as a sum over the axis. -/
theorem range_eq_fin (T : Vec Ideal S256x1024x1024 .f32) (W : Vec Ideal S1024x1 .f32) (u : Fin 256) (cc : Fin 1024) :
    ∑ k ∈ Finset.range 1024, term T W u cc k = ∑ k : Fin 1024, T (ix3 u k cc) * W (ix2 k (0 : Fin 1)) := by
  rw [← Fin.sum_univ_eq_sum_range (term T W u cc) 1024]
  refine Finset.sum_congr rfl fun k _ => ?_
  unfold term
  rw [dif_pos k.isLt]

/-- THE OUTPUT BLOCK at the last point of a row of the grid, at (r, c): the whole weighted sum of row 16 (t / 4) + r. -/
theorem out_eq (c : Dev nD) (t : Fin cfg0.N) (h1 : t.val % 4 = 3) (r : Fin 16) (cc : Fin 1024) (u : Fin 256)
    (hu : u.val = 16 * (t.val / 4) + r.val) :
    (outsAt0 m c t.val t.isLt).1 (ix2 r cc)
      = ∑ k : Fin 1024, tarr m c (ix3 u k cc) * warr m c (ix2 k (0 : Fin 1)) := by
  have h0 : ¬t.val % 4 = 0 := by omega
  refine (congrFun (out_C_eq m c t h0 h1) (ix2 r cc)).trans ?_
  rw [point_apply m c t _ r cc u hu,
    scratch_eq m c (t.val - 1) (Nat.lt_of_le_of_lt (Nat.sub_le _ _) t.isLt) r cc u (by omega),
    show 256 * ((t.val - 1) % 4 + 1) = 256 * (t.val % 4) from by omega, SumChunks.prefix_run,
    show 256 * (t.val % 4) + 256 = 1024 from by omega]
  exact range_eq_fin (tarr m c) (warr m c) u cc

end Cert.KernelIdeal.Inv

end
-- ==== Proof.Final.lean ====
/-
  The array the region leaves: v (u, c) = Σ_k T (u, k, c) · w (k, 0).

  The output window's block is written back only at the last point of each row of the grid (t = 4 i + 3), where the
  output block holds the accumulator: rows 16 i … 16 i + 15 of v. The sixteen write-backs tile the [256, 1024] array.
-/
import proofs.«426038_j14766097564250_2_alg».proof.Proof.Inv
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Inv

variable (m : (ℓ : Loc nD τ sig) → Buf (Elt Ideal) ℓ)

/-- The weighted reduction of T over its middle axis. -/
def vfun (T : Vec Ideal S256x1024x1024 .f32) (W : Vec Ideal S1024x1 .f32) : Vec Ideal S256x1024 .f32 :=
  fun i => ∑ k : Fin 1024, T (ix3 (i 0) k (i 1)) * W (ix2 k (0 : Fin 1))

theorem vfun_apply (T : Vec Ideal S256x1024x1024 .f32) (W : Vec Ideal S1024x1 .f32) (u : Fin 256) (cc : Fin 1024) :
    vfun T W (ix2 u cc) = ∑ k : Fin 1024, T (ix3 u k cc) * W (ix2 k (0 : Fin 1)) := rfl

/-- The output window's block index over the grid: point t = 4 i + j has block (i, 0). -/
theorem idxO : ∀ t : Fin cfg0.N, win0_2.index t (0 : Fin 2) = t.val / 4 ∧ win0_2.index t (1 : Fin 2) = 0 :=
  (by decide +kernel : ∀ t : Fin grid0.N, _)

/-- What a write-back writes is the block of v at the point. -/
theorem flushed_eq (c : Dev nD) (t : Fin cfg0.N) (hf : (cfg0.win 2).flush t = true) :
    (dats m 0 c).flushed 2 t = ((cfg0.win 2).blk t).view.read (Elt Ideal) (vfun (tarr m c) (warr m c)) := by
  have h3 : t.val % 4 = 3 := (flush0_2 t).mp hf
  have hN : t.val < 64 := lt_of_lt_of_eq t.isLt (show cfg0.N = 64 from N_0)
  show (cfg0.win 2).cut (grid0.coords t) ((dats m 0 c).after 2 t) = _
  rw [after0_2]
  funext j
  revert j
  show ∀ j : S16x1024.Idx, (outsAt0 m c t.val t.isLt).1 j = vfun (tarr m c) (warr m c) (((cfg0.win 2).blk t).view.emb j)
  intro j
  obtain ⟨r, cc, rfl⟩ : ∃ (r : Fin 16) (cc : Fin 1024), j = ix2 r cc := ⟨j 0, j 1, eq_ix2 j⟩
  have hu : 16 * (t.val / 4) + r.val < 256 := by have := r.isLt; omega
  obtain ⟨e0, e1⟩ := idxO t
  have he : ((cfg0.win 2).blk t).view.emb (ix2 r cc) = ix2 (⟨16 * (t.val / 4) + r.val, hu⟩ : Fin 256) cc := by
    funext a
    refine Fin.ext ?_
    match a with
    | ⟨0, _⟩ => show win0_2.index t (0 : Fin 2) * 16 + 1 * r.val = 16 * (t.val / 4) + r.val; rw [e0]; omega
    | ⟨1, _⟩ => show win0_2.index t (1 : Fin 2) * 1024 + 1 * cc.val = cc.val; rw [e1]; omega
  rw [he, vfun_apply]
  exact out_eq m c t h3 r cc ⟨_, hu⟩ rfl

/-- An index of the array is in point t's block iff each coordinate is in the block's range on its axis. -/
theorem mem_blk (t : Fin cfg0.N) (i : S256x1024.Idx) :
    i ∈ ((cfg0.win 2).blk t).view.set ↔ ∀ a : Fin 2, win0_2.index t a * S16x1024.size a ≤ (i a).val
      ∧ (i a).val < win0_2.index t a * S16x1024.size a + S16x1024.size a := by
  show i ∈ ((View.whole main_v11).slice (win0_2.rect t)).set ↔ _
  rw [View.set_slice_whole, Rect.mem_set_unit]
  exact Iff.rfl

/-- THE ARRAY after the run. -/
theorem final (c : Dev nD) : (dats m 0 c).arrAt 2 cfg0.N = vfun (tarr m c) (warr m c) :=
  (dats m 0 c).arrAt_eq_of_cover 2 (vfun (tarr m c) (warr m c)) (flushed_eq m c) fun i => by
    have hi0 : (i 0).val < 256 := (i 0).isLt
    have hi1 : (i 1).val < 1024 := (i 1).isLt
    have hN : cfg0.N = 64 := N_0
    have ht : 4 * ((i 0).val / 16) + 3 < cfg0.N := by omega
    refine ⟨⟨4 * ((i 0).val / 16) + 3, ht⟩, (flush0_2 _).mpr (by show (4 * ((i 0).val / 16) + 3) % 4 = 3; omega), ?_⟩
    rw [mem_blk]
    obtain ⟨e0, e1⟩ := idxO ⟨4 * ((i 0).val / 16) + 3, ht⟩
    intro a
    match a with
    | ⟨0, _⟩ =>
      show win0_2.index ⟨4 * ((i 0).val / 16) + 3, ht⟩ (0 : Fin 2) * 16 ≤ (i 0).val
        ∧ (i 0).val < win0_2.index ⟨4 * ((i 0).val / 16) + 3, ht⟩ (0 : Fin 2) * 16 + 16
      rw [e0]; show (4 * ((i 0).val / 16) + 3) / 4 * 16 ≤ (i 0).val ∧ (i 0).val < (4 * ((i 0).val / 16) + 3) / 4 * 16 + 16
      omega
    | ⟨1, _⟩ =>
      show win0_2.index ⟨4 * ((i 0).val / 16) + 3, ht⟩ (1 : Fin 2) * 1024 ≤ (i 1).val
        ∧ (i 1).val < win0_2.index ⟨4 * ((i 0).val / 16) + 3, ht⟩ (1 : Fin 2) * 1024 + 1024
      rw [e1]; omega

end Cert.KernelIdeal.Final

end
-- ==== Proof.Tail.lean ====
/-
  The last stages of both programs as functions of the row sums.

  From the [512, 1024] array of row sums on, the kernel's program and the reference apply the same host operations:
  the column take sel = rs[:, items] (a clamping gather at the items' index words, each normalised against 1024
  columns), the product d = sel · gi, the row norms sqrt (Σ_e d²) kept as a column, the quotient
  y = d / max (norm, 1e-12), and the row sums Σ_e gu · y. They are named here once, over literal shapes, with every
  shape fact and both dimension records as parameters, and the reference's stages are identified with them.
-/
import proofs.«426038_j14766097564250_2_alg».proof.Proof.Gen.ReferenceIdeal.Read
import proofs.«426038_j14766097564250_2_alg».proof.KernelIdeal
import Idealize.ShloMosaic.PureOps.Ideal

noncomputable section

namespace Cert.Tail

open Idealize.ShloMosaic

/-- The product d = rs[:, items] · gi: the items' index words are normalised against 1024 columns
    (x < 0 ? x + 1024 : x), laid out as a [512, 1] column of start indices, and the gather takes those columns of the
    row sums; the result is multiplied into gi. -/
def tailDot (gd : GatherDims ⟨2, ![512, 1024]⟩ ⟨2, ![512, 1]⟩ ⟨2, ![512, 512]⟩)
    (dd : DotDims ⟨2, ![512, 512]⟩ ⟨2, ![512, 64]⟩ ⟨2, ![512, 64]⟩)
    (hb1 : (⟨1, ![512]⟩ : Shape).BroadcastsInDim ⟨2, ![512, 1]⟩ (![0] : Fin 1 → Fin 2))
    (hb2 : (⟨0, ![]⟩ : Shape).BroadcastsInDim ⟨1, ![512]⟩ (![] : Fin 0 → Fin 1))
    (rs : FVec Ideal ⟨2, ![512, 1024]⟩ .f32) (items : IVec ⟨1, ![512]⟩ 32) (gi : FVec Ideal ⟨2, ![512, 64]⟩ .f32) :
    FVec Ideal ⟨2, ![512, 64]⟩ .f32 :=
  Host.dotGeneral (F := Ideal) dd none
    (Host.gather gd rs (broadcastInDim ⟨2, ![512, 1]⟩ ![0] hb1
      (select (cmpi .slt items (broadcastInDim ⟨1, ![512]⟩ ![] hb2 (constantI ⟨0, ![]⟩ 32 0#32)))
        (addi items (broadcastInDim ⟨1, ![512]⟩ ![] hb2 (constantI ⟨0, ![]⟩ 32 1024#32))) items))) gi

/-- The normalised product y = d / max (sqrt (Σ_e d²), 1e-12), the norm taken along each row of d and broadcast back. -/
def tail31 (gd : GatherDims ⟨2, ![512, 1024]⟩ ⟨2, ![512, 1]⟩ ⟨2, ![512, 512]⟩)
    (dd : DotDims ⟨2, ![512, 512]⟩ ⟨2, ![512, 64]⟩ ⟨2, ![512, 64]⟩)
    (hb1 : (⟨1, ![512]⟩ : Shape).BroadcastsInDim ⟨2, ![512, 1]⟩ (![0] : Fin 1 → Fin 2))
    (hb2 : (⟨0, ![]⟩ : Shape).BroadcastsInDim ⟨1, ![512]⟩ (![] : Fin 0 → Fin 1))
    (hr : (⟨2, ![512, 64]⟩ : Shape).ReducesTo [1] ⟨1, ![512]⟩) (h0 : 0 < (⟨0, ![]⟩ : Shape).numel)
    (hb3 : (⟨0, ![]⟩ : Shape).BroadcastsInDim ⟨2, ![512, 1]⟩ (![] : Fin 0 → Fin 2))
    (hb4 : (⟨2, ![512, 1]⟩ : Shape).BroadcastsInDim ⟨2, ![512, 64]⟩ (![0, 1] : Fin 2 → Fin 2))
    (rs : FVec Ideal ⟨2, ![512, 1024]⟩ .f32) (items : IVec ⟨1, ![512]⟩ 32) (gi : FVec Ideal ⟨2, ![512, 64]⟩ .f32) :
    FVec Ideal ⟨2, ![512, 64]⟩ .f32 :=
  Host.divf (F := Ideal) (tailDot gd dd hb1 hb2 rs items gi)
    (broadcastInDim ⟨2, ![512, 64]⟩ ![0, 1] hb4
      (maximumf (F := Ideal)
        (Host.sqrt (F := Ideal) (broadcastInDim ⟨2, ![512, 1]⟩ ![0] hb1
          (Host.reduceAdd (F := Ideal)
            (mulf (F := Ideal) (tailDot gd dd hb1 hb2 rs items gi) (tailDot gd dd hb1 hb2 rs items gi))
            (constant (F := Ideal) ⟨0, ![]⟩ .f32 0x00000000#32) hr h0)))
        (broadcastInDim ⟨2, ![512, 1]⟩ ![] hb3 (constant (F := Ideal) ⟨0, ![]⟩ .f32 0x2B8CBCCC#32))))

/-- The row sums Σ_e gu · y. -/
def tail33 (hr : (⟨2, ![512, 64]⟩ : Shape).ReducesTo [1] ⟨1, ![512]⟩) (h0 : 0 < (⟨0, ![]⟩ : Shape).numel)
    (gu y : FVec Ideal ⟨2, ![512, 64]⟩ .f32) : FVec Ideal ⟨1, ![512]⟩ .f32 :=
  Host.reduceAdd (F := Ideal) (mulf (F := Ideal) gu y) (constant (F := Ideal) ⟨0, ![]⟩ .f32 0x00000000#32) hr h0

section Reference

variable [Cert.ReferenceIdeal.Facts]

open Cert.ReferenceIdeal Cert.ReferenceIdeal.Read Cert.ReferenceIdeal.Facts₀

/-- The reference's normalised product is `tail31` of its row sums: stage by stage the same operations. -/
theorem ref_v31 (T : (⟨S256x1024x1024, .f32⟩ : BufTy).Contents (Elt Ideal))
    (gi : (⟨S512x64, .f32⟩ : BufTy).Contents (Elt Ideal)) (users items : (⟨S512, .i32⟩ : BufTy).Contents (Elt Ideal)) :
    val_main_v31 (F := Ideal) T gi users items
      = tail31 gather_S512x1024_S512x1_S512x512_0_1_n_n_1_1_5121 dot_S512x512_S512x64_S512x64_1_0_0_1_n_n
          bcast_S512_S512x1_0 bcast_S_S512 reducesTo_S512x64_S512_d1 h_S_ bcast_S_S512x1 bcast_S512x1_S512x64_0_1
          (val_main_v18 (F := Ideal) T users items) items gi := by
  unfold val_main_v31 val_main_v30 val_main_v29 val_main_v28 val_main_cst_5 val_main_v27 val_main_call0_v2
    val_main_call0_v1 val_main_call0_cst val_main_call0_v0 val_main_v26 val_main_v25 val_main_v24 val_main_v23
    val_main_v22 val_main_v21 val_main_v20 val_main_v19 val_main_c_4 val_main_c_3 tail31 tailDot
  rfl

/-- The reference's result is `tail33` of its normalised product. -/
theorem ref_v33 (T : (⟨S256x1024x1024, .f32⟩ : BufTy).Contents (Elt Ideal))
    (gu gi : (⟨S512x64, .f32⟩ : BufTy).Contents (Elt Ideal)) (users items : (⟨S512, .i32⟩ : BufTy).Contents (Elt Ideal)) :
    val_main_v33 (F := Ideal) T gu gi users items
      = tail33 reducesTo_S512x64_S512_d1 h_S_ gu (val_main_v31 (F := Ideal) T gi users items) := by
  unfold val_main_v33 val_main_v32 val_main_cst_6 tail33
  rfl

end Reference

section Records

variable [Cert.KernelIdeal.Facts₀] [Cert.ReferenceIdeal.Facts₀]

/-- The two programs state the same dimension numbers for the column take. -/
theorem gather_records_eq :
    Cert.KernelIdeal.gather_S512x1024_S512x1_S512x512_0_1_n_n_1_1_5121
      = Cert.ReferenceIdeal.gather_S512x1024_S512x1_S512x512_0_1_n_n_1_1_5121 := rfl

/-- The two programs state the same dimension numbers for the product. -/
theorem dot_records_eq :
    Cert.KernelIdeal.dot_S512x512_S512x64_S512x64_1_0_0_1_n_n
      = Cert.ReferenceIdeal.dot_S512x512_S512x64_S512x64_1_0_0_1_n_n := rfl

end Records

end Cert.Tail

end
-- ==== Proof.HostTail.lean ====
/-
  The host operations after the region, read at the two buffers the program returns.

  After the region the program takes rows of the region's result array at the user words (each moved up by 256
  when negative, then clamped by the gather), and from those rows computes the normalised product and the row
  sums: the same last stages as the reference, named once as functions of the rows. Here the contents of the two
  result buffers after the whole program are identified with those functions of the region's final result array
  and the launched arguments. The fold over the operations is first evaluated from arbitrary contents of the
  device's buffers, then read at the contents the region leaves: its arrays as the pipeline leaves them, every
  other buffer as launched.
-/
import proofs.«426038_j14766097564250_2_alg».proof.Proof.Gen.KernelIdeal.Frame
import proofs.«426038_j14766097564250_2_alg».proof.Proof.Tail
import Idealize.ShloMosaic.Lib.StableHlo.Run

noncomputable section

namespace Cert.KernelIdeal.HostTail

open Cert.KernelIdeal Cert.KernelIdeal.Gen Idealize.ShloMosaic Idealize.ShloMosaic.TcCoe Idealize.SL.Sem

variable (m : (ℓ : Loc nD τ sig) → Buf (Elt Ideal) ℓ)

/-- The rows the tail starts from: the region's result array read at the normalised, clamped user rows. -/
def rows (v : FVec Ideal S256x1024 .f32) (users : IVec S512 32) : FVec Ideal S512x1024 .f32 :=
  Host.gather gather_S256x1024_S512x1_S512x1024_1_0_n_n_0_1_11024 v (broadcastInDim S512x1 ![0] bcast_S512_S512x1_0
    (select (cmpi .slt users (broadcastInDim S512 ![] bcast_S_S512 (constantI S_ 32 0#32))) (addi users (broadcastInDim S512 ![] bcast_S_S512 (constantI S_ 32 256#32))) users))

set_option maxRecDepth 8192 in
set_option maxHeartbeats 2000000 in
/-- What the host operations after the region leave in the normalised product's buffer, from ANY contents W of
    the device's buffers: the tail of the rows read off W's result array at W's user words. -/
theorem after_v31 (W : Valuation τ sig (Elt Ideal)) :
    StableHlo.after (List.flatten [hostOps1, hostOps1_1, hostOps1_2]) W (Proc.devRef .tc main_v31)
      = Cert.Tail.tail31 gather_S512x1024_S512x1_S512x512_0_1_n_n_1_1_5121 dot_S512x512_S512x64_S512x64_1_0_0_1_n_n
          bcast_S512_S512x1_0 bcast_S_S512 reducesTo_S512x64_S512_d1 h_S_ bcast_S_S512x1 bcast_S512x1_S512x64_0_1
          (rows (W (Proc.devRef .tc main_v11)) (W (Proc.devRef .tc main_arg3))) (W (Proc.devRef .tc main_arg4)) (W (Proc.devRef .tc main_arg2)) := by
  simp only [hostOps1, hostOps1_1, hostOps1_2, List.flatten_cons, List.flatten_nil, List.append_nil, List.cons_append, List.nil_append]
  after_results_simp
  rfl

set_option maxRecDepth 8192 in
set_option maxHeartbeats 2000000 in
/-- And in the row sums' buffer: the products with W's first factor array, summed along each row. -/
theorem after_v33 (W : Valuation τ sig (Elt Ideal)) :
    StableHlo.after (List.flatten [hostOps1, hostOps1_1, hostOps1_2]) W (Proc.devRef .tc main_v33)
      = Cert.Tail.tail33 reducesTo_S512x64_S512_d1 h_S_ (W (Proc.devRef .tc main_arg1))
          (Cert.Tail.tail31 gather_S512x1024_S512x1_S512x512_0_1_n_n_1_1_5121 dot_S512x512_S512x64_S512x64_1_0_0_1_n_n
            bcast_S512_S512x1_0 bcast_S_S512 reducesTo_S512x64_S512_d1 h_S_ bcast_S_S512x1 bcast_S512x1_S512x64_0_1
            (rows (W (Proc.devRef .tc main_v11)) (W (Proc.devRef .tc main_arg3))) (W (Proc.devRef .tc main_arg4)) (W (Proc.devRef .tc main_arg2))) := by
  simp only [hostOps1, hostOps1_1, hostOps1_2, List.flatten_cons, List.flatten_nil, List.append_nil, List.cons_append, List.nil_append]
  after_results_simp
  rfl

/-- The contents the tail starts from: the region's arrays as the pipeline leaves them, every other buffer as the
    region found it. Read at the buffers the tail reads. -/
theorem W_v11 (c : Dev nD) :
    Pipeline.withArrays spec0 c (V0 m c) (fun w => (dats m 0 c).arrAt w cfg0.N) (Proc.devRef .tc main_v11)
      = (dats m 0 c).arrAt 2 cfg0.N :=
  Pipeline.withArrays_arr spec0 launch0.win.arr_inj c _ _ 2

theorem W_arg1 (c : Dev nD) :
    Pipeline.withArrays spec0 c (V0 m c) (fun w => (dats m 0 c).arrAt w cfg0.N) (Proc.devRef .tc main_arg1)
      = m ((c : Thread nD τ).loc main_arg1) :=
  (Pipeline.withArrays_of_ne _ c (V0 m c) _ main_arg1 (by decide : ∀ w, Pipeline.arrRef spec0 w ≠ main_arg1)).trans (V_main_arg1 m c)

theorem W_arg2 (c : Dev nD) :
    Pipeline.withArrays spec0 c (V0 m c) (fun w => (dats m 0 c).arrAt w cfg0.N) (Proc.devRef .tc main_arg2)
      = m ((c : Thread nD τ).loc main_arg2) :=
  (Pipeline.withArrays_of_ne _ c (V0 m c) _ main_arg2 (by decide : ∀ w, Pipeline.arrRef spec0 w ≠ main_arg2)).trans (V_main_arg2 m c)

theorem W_arg3 (c : Dev nD) :
    Pipeline.withArrays spec0 c (V0 m c) (fun w => (dats m 0 c).arrAt w cfg0.N) (Proc.devRef .tc main_arg3)
      = m ((c : Thread nD τ).loc main_arg3) :=
  (Pipeline.withArrays_of_ne _ c (V0 m c) _ main_arg3 (by decide : ∀ w, Pipeline.arrRef spec0 w ≠ main_arg3)).trans (V_main_arg3 m c)

theorem W_arg4 (c : Dev nD) :
    Pipeline.withArrays spec0 c (V0 m c) (fun w => (dats m 0 c).arrAt w cfg0.N) (Proc.devRef .tc main_arg4)
      = m ((c : Thread nD τ).loc main_arg4) :=
  (Pipeline.withArrays_of_ne _ c (V0 m c) _ main_arg4 (by decide : ∀ w, Pipeline.arrRef spec0 w ≠ main_arg4)).trans (V_main_arg4 m c)

/-- THE NORMALISED PRODUCT after the whole program: the tail of the rows read off the region's result array. -/
theorem tail_v31 (c : Dev nD) :
    Pipeline.afterTail₀ cfgs (dats m) 0 (V0 m) [hostOps1, hostOps1_1, hostOps1_2] c main_v31
      = Cert.Tail.tail31 gather_S512x1024_S512x1_S512x512_0_1_n_n_1_1_5121 dot_S512x512_S512x64_S512x64_1_0_0_1_n_n
          bcast_S512_S512x1_0 bcast_S_S512 reducesTo_S512x64_S512_d1 h_S_ bcast_S_S512x1 bcast_S512x1_S512x64_0_1
          (rows ((dats m 0 c).arrAt 2 cfg0.N) (m ((c : Thread nD τ).loc main_arg3))) (m ((c : Thread nD τ).loc main_arg4)) (m ((c : Thread nD τ).loc main_arg2)) := by
  refine (after_v31 _).trans ?_
  rw [W_v11 m c, W_arg2 m c, W_arg3 m c, W_arg4 m c]

/-- THE ROW SUMS after the whole program. -/
theorem tail_v33 (c : Dev nD) :
    Pipeline.afterTail₀ cfgs (dats m) 0 (V0 m) [hostOps1, hostOps1_1, hostOps1_2] c main_v33
      = Cert.Tail.tail33 reducesTo_S512x64_S512_d1 h_S_ (m ((c : Thread nD τ).loc main_arg1))
          (Cert.Tail.tail31 gather_S512x1024_S512x1_S512x512_0_1_n_n_1_1_5121 dot_S512x512_S512x64_S512x64_1_0_0_1_n_n
            bcast_S512_S512x1_0 bcast_S_S512 reducesTo_S512x64_S512_d1 h_S_ bcast_S_S512x1 bcast_S512x1_S512x64_0_1
            (rows ((dats m 0 c).arrAt 2 cfg0.N) (m ((c : Thread nD τ).loc main_arg3))) (m ((c : Thread nD τ).loc main_arg4)) (m ((c : Thread nD τ).loc main_arg2))) := by
  refine (after_v33 _).trans ?_
  rw [W_v11 m c, W_arg1 m c, W_arg2 m c, W_arg3 m c, W_arg4 m c]

end Cert.KernelIdeal.HostTail

end
-- ==== Proof.KRun.lean ====
/-
  The kernel's program, run: what its two computed results hold, as values.

  The region leaves v (u, c) = Σ_k T (u, k, c) · w (k, 0) in its result array (w the weight column the host operations
  before it build); the host operations after it take v's rows at the user words and apply the last stages. The
  arguments end as launched.
-/
import proofs.«426038_j14766097564250_2_alg».proof.Proof.Final
import proofs.«426038_j14766097564250_2_alg».proof.Proof.HostTail
import proofs.«426038_j14766097564250_2_alg».proof.Proof.Tail

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Blocks Cert.KernelIdeal.Final

variable (m : (ℓ : Loc nD τ sig) → Buf (Elt Ideal) ℓ) (ρ : Dev nD → PrngReg)

/-- The normalised product the program returns: the last stages of the rows of v at the user words. -/
def out31 (c : Dev nD) : Buf (Elt Ideal) ((c.tc : Thread nD τ).loc main_v31) :=
  Cert.Tail.tail31 gather_S512x1024_S512x1_S512x512_0_1_n_n_1_1_5121 dot_S512x512_S512x64_S512x64_1_0_0_1_n_n
    bcast_S512_S512x1_0 bcast_S_S512 reducesTo_S512x64_S512_d1 h_S_ bcast_S_S512x1 bcast_S512x1_S512x64_0_1
    (HostTail.rows (vfun (m ((c : Thread nD τ).loc main_arg0)) (warr m c)) (m ((c : Thread nD τ).loc main_arg3)))
    (m ((c : Thread nD τ).loc main_arg4)) (m ((c : Thread nD τ).loc main_arg2))

/-- The row sums of its product with the second argument. -/
def out33 (c : Dev nD) : Buf (Elt Ideal) ((c.tc : Thread nD τ).loc main_v33) :=
  Cert.Tail.tail33 reducesTo_S512x64_S512_d1 h_S_ (m ((c : Thread nD τ).loc main_arg1)) (out31 m c)

/-- The region's result array, over the launched first argument. -/
theorem final_arg (c : Dev nD) :
    (dats m 0 c).arrAt 2 cfg0.N = vfun (m ((c : Thread nD τ).loc main_arg0)) (warr m c) := by
  rw [final m c]
  exact congrArg (fun T => vfun T (warr m c)) (V_main_arg0 m c)

theorem v31_eq (c : Dev nD) :
    Pipeline.afterTail₀ cfgs (dats m) 0 (V0 m) [hostOps1, hostOps1_1, hostOps1_2] c main_v31 = out31 m c := by
  rw [HostTail.tail_v31 m c, final_arg m c]
  rfl

theorem v33_eq (c : Dev nD) :
    Pipeline.afterTail₀ cfgs (dats m) 0 (V0 m) [hostOps1, hostOps1_1, hostOps1_2] c main_v33 = out33 m c := by
  rw [HostTail.tail_v33 m c, final_arg m c]
  rfl

/-- THE RUN, read: every weakly fair execution terminates with the two computed results at those values and the
    arguments unchanged. -/
theorem run : θ_run defs (onTc (τ := τ) (main (F := Ideal))) ⟨m, fun _ => 0, ρ⟩ (fun r => ∀ c : Dev nD,
      r.2.mem ((c.tc : Thread nD τ).loc main_v33) = out33 m c
      ∧ r.2.mem ((c.tc : Thread nD τ).loc main_arg1) = m ((c.tc : Thread nD τ).loc main_arg1)
      ∧ r.2.mem ((c.tc : Thread nD τ).loc main_v31) = out31 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v33 (Pipeline.mem_restRefs_of main_v33 (by decide) (by decide))).trans (v33_eq m c),
      ((h c).2 main_arg1 (Pipeline.mem_restRefs_of main_arg1 (by decide) (by decide))).trans (W_main_arg1 m (dats m) c),
      ((h c).2 main_v31 (Pipeline.mem_restRefs_of main_v31 (by decide) (by decide))).trans (v31_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.Wrap.lean ====
/-
  Index words as jnp reads them: a negative index is moved up by the axis length before it is used
  (x < 0 ? x + n : x), and a gather then clamps the signed value into [0, N − 1].
-/
import Idealize.ShloMosaic.PureOps.Ideal
import Idealize.ShloMosaic.Lib.ValueIdx

noncomputable section

namespace Cert.Idx

open Idealize.ShloMosaic

/-- jnp's normalisation of one index word against an axis of length `n`: `x + n` when `x` is negative (signed), else `x`. -/
def wrap (n x : BitVec 32) : BitVec 32 :=
  Scalar.select (IntOp.cmpi .slt x 0#32) (IntOp.addi x n) x

/-- A non-negative word is left as it is. -/
theorem wrap_of_nonneg (n x : BitVec 32) (h : 0 ≤ x.toInt) : wrap n x = x := by
  unfold wrap Scalar.select IntOp.cmpi
  have : x.slt 0#32 = false := by
    simp only [BitVec.slt, decide_eq_false_iff_not, not_lt]
    simpa using h
  simp [this]

/-- The row a clamping gather reads for the index word `x` on an axis of `N` rows. -/
def clampTo (N : Nat) (x : BitVec 32) : Nat := min x.toInt.toNat (N - 1)

theorem clampTo_lt {N : Nat} (hN : 0 < N) (x : BitVec 32) : clampTo N x < N := by
  unfold clampTo; omega

/-- A word whose signed value is in range is its own row. -/
theorem clampTo_of_range {N : Nat} (x : BitVec 32) (h0 : 0 ≤ x.toInt) (h1 : x.toInt < N) : (clampTo N x : Int) = x.toInt := by
  unfold clampTo
  omega

end Cert.Idx

end
-- ==== Proof.CountSum.lean ====
/-
  Grouping a sum by the value of its index map, over the extended reals.

  A product of an extended real x with a natural number n is the n-fold sum of x (for every x,
  infinite ones included, and for n = 0, where both sides are 0), so a sum over k of f k times the
  number of m with g m = k is the sum over m of f (g m): no finiteness is needed.
-/
import Mathlib.Data.EReal.Basic
import Mathlib.Data.EReal.Operations
import Mathlib.Algebra.BigOperators.Group.Finset.Basic
import Mathlib.Algebra.BigOperators.Group.Finset.Piecewise
import Mathlib.Algebra.BigOperators.Group.Finset.Sigma
import Mathlib.Data.Fintype.Basic

open scoped BigOperators

namespace Cert.CountSum

/-- An extended real times a natural number is the n-fold sum. -/
theorem mul_natCast (x : EReal) (n : Nat) : x * ((n : ℝ) : EReal) = n • x := by
  induction n with
  | zero => simp
  | succ n ih =>
    have hn : (0 : EReal) ≤ ((n : ℝ) : EReal) := EReal.coe_nonneg.2 (Nat.cast_nonneg n)
    have h1 : (0 : EReal) ≤ ((1 : ℝ) : EReal) := EReal.coe_nonneg.2 zero_le_one
    rw [Nat.cast_succ, EReal.coe_add, EReal.left_distrib_of_nonneg hn h1, ih, succ_nsmul, EReal.coe_one, mul_one]

/-- A sum over k of f k times the number of m that g sends to k, regrouped as a sum over m. -/
theorem sum_mul_count {N K : Nat} (f : Fin N → EReal) (g : Fin K → Int) (hg : ∀ m, 0 ≤ g m ∧ g m < (N : Int)) :
    ∑ k : Fin N, f k * (((Finset.univ.filter fun m : Fin K => g m = (k.val : Int)).card : ℝ) : EReal)
      = ∑ m : Fin K, f ⟨(g m).toNat, by have := hg m; omega⟩ := by
  -- each product is a sum of f k over the m that g sends to k
  have h1 : ∀ k : Fin N, f k * (((Finset.univ.filter fun m : Fin K => g m = (k.val : Int)).card : ℝ) : EReal)
      = ∑ m : Fin K, if g m = (k.val : Int) then f k else 0 := by
    intro k
    rw [mul_natCast, ← Finset.sum_const, Finset.sum_filter]
  rw [Finset.sum_congr rfl fun k _ => h1 k, Finset.sum_comm]
  refine Finset.sum_congr rfl fun m _ => ?_
  -- for a fixed m exactly one k is met: k = g m
  have hm := hg m
  have h2 : ∀ k : Fin N, (if g m = (k.val : Int) then f k else 0)
      = if (⟨(g m).toNat, by omega⟩ : Fin N) = k then f k else 0 := by
    intro k
    refine if_congr ?_ rfl rfl
    constructor
    · intro e; exact Fin.ext (by show (g m).toNat = k.val; omega)
    · intro e; have := congrArg Fin.val e; change (g m).toNat = k.val at this; omega
  rw [Finset.sum_congr rfl fun k _ => h2 k, Finset.sum_ite_eq]
  simp

end Cert.CountSum
-- ==== Proof.Gather3.lean ====
/-
  The two-index take `T[users[:, None], items[None, :], :]` read at an index.

  `Host.gather` with offset_dims [2], collapsed_slice_dims [0, 1], start_index_map [0, 1], index_vector_dim 2 and
  slice sizes [1, 1, C], over an operand [U, I, C] and start indices [B, M, 2], reads at (b, m, c) the operand at
  row idx[b, m, 0] of the first axis and row idx[b, m, 1] of the second (each read signed and clamped into its
  axis), column c.
  The concatenation along the last axis of two arrays [B, M, 1] is the array [B, M, 2] whose entry (b, m, 0) is the
  first array's (b, m, 0) and whose entry (b, m, 1) is the second's (b, m, 0).
-/
import Idealize.ShloMosaic.PureOps.Ideal
import Idealize.ShloMosaic.Lib.ValueIdx

noncomputable section

namespace Cert.Gather3

open Idealize.ShloMosaic Idealize.ShloMosaic.ValueIdx

/-- The dimension numbers of a two-index take: operand [U, I, C], start indices [B, M, 2], result [B, M, C]. -/
abbrev gatherDims (U I C B M : Nat)
    (wf : GatherDims.WF ⟨3, ![U, I, C]⟩ ⟨3, ![B, M, 2]⟩ ⟨3, ![B, M, C]⟩ [2] [0, 1] [] [0, 1] [] 2 ![1, 1, C]) :
    GatherDims ⟨3, ![U, I, C]⟩ ⟨3, ![B, M, 2]⟩ ⟨3, ![B, M, C]⟩ where
  offsetDims := [2]
  collapsedSliceDims := [0, 1]
  operandBatchingDims := []
  startIndicesBatchingDims := []
  startIndexMap := [0, 1]
  indexVectorDim := 2
  sliceSizes := ![1, 1, C]
  wf := wf

/-- Component 0 of the start index of result entry (b, m, c) sits at (b, m, 0) of the start indices. -/
private theorem siIdx0 {U I C B M : Nat}
    (wf : GatherDims.WF ⟨3, ![U, I, C]⟩ ⟨3, ![B, M, 2]⟩ ⟨3, ![B, M, C]⟩ [2] [0, 1] [] [0, 1] [] 2 ![1, 1, C])
    (b : Fin B) (m : Fin M) (c : Fin C) (h : List.idxOf (0 : Fin 3) (gatherDims U I C B M wf).startIndexMap < (gatherDims U I C B M wf).startIndexMap.length) :
    (gatherDims U I C B M wf).siIdx (ix3 b m c) ⟨List.idxOf (0 : Fin 3) (gatherDims U I C B M wf).startIndexMap, h⟩ = ix3 b m (0 : Fin 2) := by
  funext e; refine Fin.ext ?_
  match e with
  | ⟨0, _⟩ => rfl
  | ⟨1, _⟩ => rfl
  | ⟨2, _⟩ => rfl

/-- Component 1 of the start index of result entry (b, m, c) sits at (b, m, 1) of the start indices. -/
private theorem siIdx1 {U I C B M : Nat}
    (wf : GatherDims.WF ⟨3, ![U, I, C]⟩ ⟨3, ![B, M, 2]⟩ ⟨3, ![B, M, C]⟩ [2] [0, 1] [] [0, 1] [] 2 ![1, 1, C])
    (b : Fin B) (m : Fin M) (c : Fin C) (h : List.idxOf (1 : Fin 3) (gatherDims U I C B M wf).startIndexMap < (gatherDims U I C B M wf).startIndexMap.length) :
    (gatherDims U I C B M wf).siIdx (ix3 b m c) ⟨List.idxOf (1 : Fin 3) (gatherDims U I C B M wf).startIndexMap, h⟩ = ix3 b m (1 : Fin 2) := by
  funext e; refine Fin.ext ?_
  match e with
  | ⟨0, _⟩ => rfl
  | ⟨1, _⟩ => rfl
  | ⟨2, _⟩ => rfl

/-- THE TWO-INDEX TAKE READ AT (b, m, c): the operand at rows idx[b, m, 0] and idx[b, m, 1], each read signed and
    clamped into its axis, column c. -/
theorem gather3_apply {α : Type} {U I C B M w : Nat} (hU : 0 < U) (hI : 0 < I)
    (wf : GatherDims.WF ⟨3, ![U, I, C]⟩ ⟨3, ![B, M, 2]⟩ ⟨3, ![B, M, C]⟩ [2] [0, 1] [] [0, 1] [] 2 ![1, 1, C])
    (x : (⟨3, ![U, I, C]⟩ : Shape).Idx → α) (idx : IVec ⟨3, ![B, M, 2]⟩ w) (b : Fin B) (m : Fin M) (c : Fin C) :
    Host.gather (gatherDims U I C B M wf) x idx (ix3 b m c)
      = x (ix3 ⟨min (idx (ix3 b m (0 : Fin 2))).toInt.toNat (U - 1), by omega⟩
               ⟨min (idx (ix3 b m (1 : Fin 2))).toInt.toNat (I - 1), by omega⟩ c) := by
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  unfold Host.gather
  congr 1
  funext a
  refine Fin.ext ?_
  match a with
  | ⟨0, _⟩ =>
    -- a collapsed axis named first by the index map: the clamped component 0, no batching and no offset coordinate
    show (gatherDims U I C B M wf).start (ix3 b m c) idx 0 + (gatherDims U I C B M wf).batchCoord (ix3 b m c) 0
      + (gatherDims U I C B M wf).offCoord (ix3 b m c) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 3) ∈ (gatherDims U I C B M wf).startIndexMap from m0)]
    have hsi := siIdx0 wf b m c (List.idxOf_lt_length_iff.2 (show (0 : Fin 3) ∈ (gatherDims U I C B M wf).startIndexMap from m0))
    refine (congrArg (fun q => min (idx q).toInt.toNat _) hsi).trans ?_
    rfl
  | ⟨1, _⟩ =>
    -- a collapsed axis named second by the index map: the clamped component 1
    show (gatherDims U I C B M wf).start (ix3 b m c) idx 1 + (gatherDims U I C B M wf).batchCoord (ix3 b m c) 1
      + (gatherDims U I C B M wf).offCoord (ix3 b m c) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (gatherDims U I C B M wf).startIndexMap from m1)]
    have hsi := siIdx1 wf b m c (List.idxOf_lt_length_iff.2 (show (1 : Fin 3) ∈ (gatherDims U I C B M wf).startIndexMap from m1))
    refine (congrArg (fun q => min (idx q).toInt.toNat _) hsi).trans ?_
    rfl
  | ⟨2, _⟩ =>
    -- the offset axis: start 0, no batching coordinate, the result's column
    show (gatherDims U I C B M wf).start (ix3 b m c) idx 2 + (gatherDims U I C B M wf).batchCoord (ix3 b m c) 2
      + (gatherDims U I C B M wf).offCoord (ix3 b m c) 2 = c.val
    rw [GatherDims.batchCoord_eq_zero _ _ _ List.not_mem_nil]
    have hst : (gatherDims U I C B M wf).start (ix3 b m c) idx 2 = 0 := by
      unfold GatherDims.start
      rw [dif_neg (show (2 : Fin 3) ∉ (gatherDims U I C B M wf).startIndexMap from m2)]
    have hoff : (gatherDims U I C B M wf).offCoord (ix3 b m c) 2 = c.val := by
      unfold GatherDims.offCoord
      rw [dif_pos (show (2 : Fin 3) ∈ (gatherDims U I C B M wf).sKept from
        (GatherDims.mem_sKept _ _).mpr ⟨m2, List.not_mem_nil⟩)]
      rfl
    rw [hst, hoff]; simp

/-- The concatenation of two arrays [B, M, 1] along the last axis, read at (b, m, 0): the first array's (b, m, 0)
    (position 0 of the laid-out sizes [1, 1] falls in the first piece, at its position 0). -/
theorem concat_pair_apply0 {α : Type} {B M : Nat}
    (h : Shape.Concatenates [⟨3, ![B, M, 1]⟩, ⟨3, ![B, M, 1]⟩] ⟨3, ![B, M, 2]⟩ 2)
    (p q : (⟨3, ![B, M, 1]⟩ : Shape).Idx → α) (b : Fin B) (m : Fin M) :
    concatenate ⟨3, ![B, M, 2]⟩ 2 [⟨⟨3, ![B, M, 1]⟩, p⟩, ⟨⟨3, ![B, M, 1]⟩, q⟩] h (ix3 b m (0 : Fin 2))
      = p (ix3 b m (0 : Fin 1)) := by
  unfold concatenate
  refine congrArg p ?_
  funext e; refine Fin.ext ?_
  match e with
  | ⟨0, _⟩ => rfl
  | ⟨1, _⟩ => rfl
  | ⟨2, _⟩ => rfl

/-- The same concatenation read at (b, m, 1): the second array's (b, m, 0)
    (position 1 of the laid-out sizes [1, 1] falls in the second piece, at its position 0). -/
theorem concat_pair_apply1 {α : Type} {B M : Nat}
    (h : Shape.Concatenates [⟨3, ![B, M, 1]⟩, ⟨3, ![B, M, 1]⟩] ⟨3, ![B, M, 2]⟩ 2)
    (p q : (⟨3, ![B, M, 1]⟩ : Shape).Idx → α) (b : Fin B) (m : Fin M) :
    concatenate ⟨3, ![B, M, 2]⟩ 2 [⟨⟨3, ![B, M, 1]⟩, p⟩, ⟨⟨3, ![B, M, 1]⟩, q⟩] h (ix3 b m (1 : Fin 2))
      = q (ix3 b m (0 : Fin 1)) := by
  unfold concatenate
  refine congrArg q ?_
  funext e; refine Fin.ext ?_
  match e with
  | ⟨0, _⟩ => rfl
  | ⟨1, _⟩ => rfl
  | ⟨2, _⟩ => rfl

end Cert.Gather3

end
-- ==== Proof.RefRows.lean ====
/-
  The reference program's row sums read at an index.

  The reference normalises each index word against its axis (a negative word is moved up by the axis length), lays the
  two normalised index vectors out as a [512, 512, 2] array of index pairs (users down the rows, items along the
  columns), takes T at every pair with one clamping gather, and sums the [512, 512, 1024] result over its middle axis.
  Read at (b, c) the result is the sum over m of T at (row of users[b], row of items[m], c), where the row of an index
  word on an axis of N rows is the normalised word read signed and clamped into [0, N − 1].
-/
import proofs.«426038_j14766097564250_2_alg».proof.Proof.Gen.ReferenceIdeal.Read
import proofs.«426038_j14766097564250_2_alg».proof.Proof.Gather3
import proofs.«426038_j14766097564250_2_alg».proof.Proof.Wrap

noncomputable section

open scoped BigOperators

namespace Cert.RefRows

open Cert.ReferenceIdeal Cert.ReferenceIdeal.Read Idealize.ShloMosaic Idealize.ShloMosaic.ValueIdx

/-- The generated dimension numbers of the reference's gather are those of the two-index take. -/
theorem gather_eq :
    gather_S256x1024x1024_S512x512x2_S512x512x1024_2_01_n_n_01_2_111024
      = Cert.Gather3.gatherDims 256 1024 1024 512 512
          Cert.ReferenceIdeal.Gen.gather_S256x1024x1024_S512x512x2_S512x512x1024_2_01_n_n_01_2_111024_wf := rfl

/-- The index-pair array at (b, m, 0): the users' word b, normalised against 256 rows. -/
theorem pairs_apply0 (users items : (⟨S512, .i32⟩ : BufTy).Contents (Elt Ideal)) (b m : Fin 512) :
    val_main_v16 (F := Ideal) users items (ix3 b m (0 : Fin 2)) = Cert.Idx.wrap 256#32 (users (ix1 b)) := by
  unfold val_main_v16
  refine (Cert.Gather3.concat_pair_apply0 _ _ _ b m).trans ?_
  rw [val_main_v14_apply, val_main_v12_apply, val_main_v6_apply, val_main_v3_apply, val_main_v5_apply,
    val_main_v0_apply, val_main_v2_apply, val_main_v4_apply, val_main_c_apply, val_main_c_0_apply]
  have hi : idx_main_v0 (idx_main_v12 (idx_main_v14 (ix3 b m (0 : Fin 1)))) = ix1 b := by
    funext a; refine Fin.ext ?_
    match a with
    | ⟨0, _⟩ => rfl
  rw [hi]
  rfl

/-- The index-pair array at (b, m, 1): the items' word m, normalised against 1024 rows. -/
theorem pairs_apply1 (users items : (⟨S512, .i32⟩ : BufTy).Contents (Elt Ideal)) (b m : Fin 512) :
    val_main_v16 (F := Ideal) users items (ix3 b m (1 : Fin 2)) = Cert.Idx.wrap 1024#32 (items (ix1 m)) := by
  unfold val_main_v16
  refine (Cert.Gather3.concat_pair_apply1 _ _ _ b m).trans ?_
  rw [val_main_v15_apply, val_main_v13_apply, val_main_v11_apply, val_main_v8_apply, val_main_v10_apply,
    val_main_v1_apply, val_main_v7_apply, val_main_v9_apply, val_main_c_1_apply, val_main_c_2_apply]
  have hi : idx_main_v1 (idx_main_v13 (idx_main_v15 (ix3 b m (0 : Fin 1)))) = ix1 m := by
    funext a; refine Fin.ext ?_
    match a with
    | ⟨0, _⟩ => rfl
  rw [hi]
  rfl

/-- THE ROW SUMS READ AT (b, c): the sum over m of T at (row of users[b], row of items[m], c). -/
theorem rowsum_apply (T : (⟨S256x1024x1024, .f32⟩ : BufTy).Contents (Elt Ideal))
    (users items : (⟨S512, .i32⟩ : BufTy).Contents (Elt Ideal)) (b : Fin 512) (c : Fin 1024) :
    val_main_v18 (F := Ideal) T users items (ix2 b c)
      = ∑ m : Fin 512, T (ix3 ⟨Cert.Idx.clampTo 256 (Cert.Idx.wrap 256#32 (users (ix1 b))), Cert.Idx.clampTo_lt (by decide) _⟩
                             ⟨Cert.Idx.clampTo 1024 (Cert.Idx.wrap 1024#32 (items (ix1 m))), Cert.Idx.clampTo_lt (by decide) _⟩ c) := by
  rw [val_main_v18_apply]
  -- the sum starts from +0.0, which is 0
  have h0 : val_main_cst (F := Ideal) (Shape.Idx.first Cert.ReferenceIdeal.Gen.h_S_) = 0 := Ideal.ofBits_zero_f32
  rw [h0, zero_add]
  refine Finset.sum_congr rfl fun m _ => ?_
  -- term m reads the gather at (b, m, c)
  have hidx : idx_main_v18 (ix2 b c) m = ix3 b m c := by
    funext a; refine Fin.ext ?_
    match a with
    | ⟨0, _⟩ => rfl
    | ⟨1, _⟩ => rfl
    | ⟨2, _⟩ => rfl
  rw [hidx]
  unfold val_main_v17
  rw [gather_eq]
  refine (Cert.Gather3.gather3_apply (by decide) (by decide) _ T _ b m c).trans ?_
  refine congrArg T ?_
  funext a; refine Fin.ext ?_
  match a with
  | ⟨0, _⟩ =>
    show min (val_main_v16 (F := Ideal) users items (ix3 b m (0 : Fin 2))).toInt.toNat (256 - 1) = _
    rw [pairs_apply0]
    rfl
  | ⟨1, _⟩ =>
    show min (val_main_v16 (F := Ideal) users items (ix3 b m (1 : Fin 2))).toInt.toNat (1024 - 1) = _
    rw [pairs_apply1]
    rfl
  | ⟨2, _⟩ => rfl

end Cert.RefRows

end
-- ==== Proof.Bridge.lean ====
/-
  The two programs' row sums are one array.

  The kernel's program takes rows of v (u, c) = Σ_k T (u, k, c) · w (k, 0) at the user rows, where w (k, 0) counts the
  item words equal to k; the reference sums T (user row, item m, c) over the 512 item words m. Grouping the reference's
  512 terms by the value of the item word gives the kernel's weighted sum: a product with a count is the count-fold sum,
  at every extended real. It needs every item word in [0, 1024): a word outside is DROPPED by the kernel's histogram
  and CLAMPED by the reference's gather. The user words need nothing: both programs move a negative word up by 256 and
  clamp it into [0, 255] alike.
-/
import proofs.«426038_j14766097564250_2_alg».proof.Proof.Final
import proofs.«426038_j14766097564250_2_alg».proof.Proof.LibRows
import proofs.«426038_j14766097564250_2_alg».proof.Proof.Wrap
import proofs.«426038_j14766097564250_2_alg».proof.Proof.CountSum
import proofs.«426038_j14766097564250_2_alg».proof.Proof.RefRows
import Idealize.ShloMosaic.Lib.Pipeline.Value
import Idealize.ShloMosaic.Lib.ValueIdx

noncomputable section

open Idealize.ShloMosaic Idealize.ShloMosaic.ValueIdx

namespace Cert.Bridge

open Cert.KernelIdeal Cert.KernelIdeal.Gen Cert.KernelIdeal.Final

/-- The user index column at (b, 0): user word b, moved up by 256 when negative. -/
theorem ucol_apply (users : S512.Idx → BitVec 32) (b : Fin 512) :
    (broadcastInDim S512x1 ![0] bcast_S512_S512x1_0
        (select (cmpi .slt users (broadcastInDim S512 ![] bcast_S_S512 (constantI S_ 32 0#32)))
          (addi users (broadcastInDim S512 ![] bcast_S_S512 (constantI S_ 32 256#32))) users) : S512x1.Idx → BitVec 32)
      (ix2 b (0 : Fin 1))
      = Cert.Idx.wrap 256#32 (users (ix1 b)) := by
  rw [broadcastInDim_apply _ _ _ (ix2 b (0 : Fin 1)) (ix1 b) (by
    intro a
    match a with
    | ⟨0, _⟩ => rfl)]
  rfl

/-- The rows the kernel's program takes of the region's result, at (b, c): row clamp (user word b) of it. -/
theorem rows_apply (v : FVec Ideal S256x1024 .f32) (users : S512.Idx → BitVec 32) (b : Fin 512) (cc : Fin 1024) :
    Host.gather gather_S256x1024_S512x1_S512x1024_1_0_n_n_0_1_11024 v
        (broadcastInDim S512x1 ![0] bcast_S512_S512x1_0
          (select (cmpi .slt users (broadcastInDim S512 ![] bcast_S_S512 (constantI S_ 32 0#32)))
            (addi users (broadcastInDim S512 ![] bcast_S_S512 (constantI S_ 32 256#32))) users)) (ix2 b cc)
      = v (ix2 ⟨Cert.Idx.clampTo 256 (Cert.Idx.wrap 256#32 (users (ix1 b))), Cert.Idx.clampTo_lt (by decide) _⟩ cc) := by
  have hd : gather_S256x1024_S512x1_S512x1024_1_0_n_n_0_1_11024
      = Cert.Lib.Rows.gatherDims 256 1024 512 gather_S256x1024_S512x1_S512x1024_1_0_n_n_0_1_11024_wf := rfl
  rw [hd, Cert.Lib.Rows.gather_rows_apply (by decide)]
  refine congrArg v (congrArg (fun u => ix2 u cc) (Fin.ext ?_))
  show min _ (256 - 1) = Cert.Idx.clampTo 256 _
  rw [ucol_apply]
  rfl

/-- THE BRIDGE at (b, c). `W` is the weight column: entry (k, 0) the number of item words equal to k. -/
theorem rowsum_eq (T : Vec Ideal S256x1024x1024 .f32) (W : Vec Ideal S1024x1 .f32) (users items : S512.Idx → BitVec 32)
    (hW : ∀ k : Fin 1024, W (ix2 k (0 : Fin 1))
      = (((Finset.univ.filter fun j : Fin 512 => (Cert.Idx.wrap 1024#32 (items (ix1 j))).toInt = (k.val : Int)).card : ℝ) : EReal))
    (hr : ∀ j : Fin 512, 0 ≤ (items (ix1 j)).toInt ∧ (items (ix1 j)).toInt < 1024) (b : Fin 512) (cc : Fin 1024) :
    Host.gather gather_S256x1024_S512x1_S512x1024_1_0_n_n_0_1_11024 (vfun T W)
        (broadcastInDim S512x1 ![0] bcast_S512_S512x1_0
          (select (cmpi .slt users (broadcastInDim S512 ![] bcast_S_S512 (constantI S_ 32 0#32)))
            (addi users (broadcastInDim S512 ![] bcast_S_S512 (constantI S_ 32 256#32))) users)) (ix2 b cc)
      = Cert.ReferenceIdeal.Read.val_main_v18 (F := Ideal) T users items (ix2 b cc) := by
  rw [rows_apply, vfun_apply, Cert.RefRows.rowsum_apply]
  have hw : ∀ j : Fin 512, Cert.Idx.wrap 1024#32 (items (ix1 j)) = items (ix1 j) :=
    fun j => Cert.Idx.wrap_of_nonneg _ _ (hr j).1
  simp only [hW, hw]
  refine (Cert.CountSum.sum_mul_count (N := 1024) (K := 512)
    (fun k => T (ix3 ⟨Cert.Idx.clampTo 256 (Cert.Idx.wrap 256#32 (users (ix1 b))), Cert.Idx.clampTo_lt (by decide) _⟩ k cc))
    (fun j => (items (ix1 j)).toInt) (fun j => ⟨(hr j).1, by have := (hr j).2; exact_mod_cast this⟩)).trans ?_
  refine Finset.sum_congr rfl fun j _ => congrArg (fun k => T (ix3 _ k cc)) (Fin.ext ?_)
  show (items (ix1 j)).toInt.toNat = Cert.Idx.clampTo 1024 (items (ix1 j))
  have h0 := (hr j).1
  have h1 := (hr j).2
  unfold Cert.Idx.clampTo
  omega

end Cert.Bridge

end
-- ==== Proof.Hist.lean ====
/-
  The histogram of K index words over N bins (a scatter that adds 1 into a zero vector of length N at
  each index word), read at an entry, and its conversion to a float.

  The scatter is a left fold over the K updates: update m adds 1 at the entry its index word
  idx[m, 0], read signed, names, and is dropped when that integer is outside [0, N). Hence entry k
  holds the number of updates whose index word is k (a number at most K, so below 2^31: the 32-bit
  sum neither wraps nor turns negative), and the signed conversion to a float is, at the ideal
  values, that natural number.
-/
import Idealize.ShloMosaic.PureOps.Ideal
import Idealize.ShloMosaic.Lib.ValueIdx
import Idealize.ShloMosaic.Lib.ValueIdxRank1
import Mathlib.Data.Finset.Card
import Mathlib.Data.Fintype.Basic

noncomputable section

namespace Cert.Hist

open Idealize.ShloMosaic Idealize.ShloMosaic.ValueIdx

/-- The dimension numbers: operand [N], scatter indices [K, 1], updates [K]. -/
abbrev scatterDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- How many of the K index words, read signed, are k. -/
def count {K : Nat} (idx : IVec ⟨2, ![K, 1]⟩ 32) (k : Nat) : Nat :=
  (Finset.univ.filter fun m : Fin K => (idx (ix2 m (0 : Fin 1))).toInt = (k : Int)).card

/-- There are at most K index words. -/
theorem count_le {K : Nat} (idx : IVec ⟨2, ![K, 1]⟩ 32) (k : Nat) : count idx k ≤ K := by
  unfold count
  exact (Finset.card_le_univ _).trans_eq (Fintype.card_fin K)

/-! ### The fold, for any body that adds one -/

section Fold

variable {s si u : Shape} {w : Nat} (d : ScatterDims s si u) (idx : IVec si w)

/-- One step of the scatter's fold with the body "add" and every update 1. -/
def step (r : s.Idx → BitVec 32) (n : Fin u.numel) : s.Idx → BitVec 32 :=
  match d.resultIdx? (u.rowMajor.symm n) idx with
  | some i => fun i' => if i' = i then IntOp.addi (r i) 1#32 else r i'
  | none => r

/-- A step adds 1 at the entry where its update lands and leaves every other entry. -/
theorem step_apply (r : s.Idx → BitVec 32) (n : Fin u.numel) (i : s.Idx) :
    step d idx r n i = if d.resultIdx? (u.rowMajor.symm n) idx = some i then r i + 1#32 else r i := by
  unfold step
  cases h : d.resultIdx? (u.rowMajor.symm n) idx with
  | none => simp
  | some i₀ =>
    by_cases e : i = i₀
    · subst e; simp [IntOp.addi]
    · have : ¬ (some i₀ = some i) := fun h' => e (Option.some.inj h').symm
      simp [e, this]

/-- Folding the steps over ANY list of update numbers: entry i gains one per listed update that lands at i. -/
theorem foldl_step_apply (l : List (Fin u.numel)) (r : s.Idx → BitVec 32) (i : s.Idx) :
    l.foldl (step d idx) r i
      = r i + BitVec.ofNat 32 (l.countP fun n => decide (d.resultIdx? (u.rowMajor.symm n) idx = some i)) := by
  induction l generalizing r with
  | nil => simp
  | cons n l ih =>
    rw [List.foldl_cons, ih, step_apply, List.countP_cons]
    by_cases h : d.resultIdx? (u.rowMajor.symm n) idx = some i
    · simp only [h, if_true, decide_true]
      rw [BitVec.ofNat_add, BitVec.add_assoc, BitVec.add_comm (BitVec.ofNat 32 _) (BitVec.ofNat 32 1)]
    · simp [h]

end Fold

/-! ### Where an update of the histogram lands -/

section Land

variable {N K : Nat} (wf : ScatterDims.WF ⟨1, ![N]⟩ ⟨2, ![K, 1]⟩ ⟨1, ![K]⟩ [] [0] [0] 1)
  (idx : IVec ⟨2, ![K, 1]⟩ 32)

/-- The start of update m on the operand's one axis is its index word idx[m, 0], read signed. -/
theorem start_eq (m : Fin K) (a : Fin 1) :
    (scatterDims N K wf).start (ix1 m) idx a = (idx (ix2 m (0 : Fin 1))).toInt := by
  obtain rfl : a = 0 := Subsingleton.elim _ _
  unfold ScatterDims.start
  rw [dif_pos (show (0 : Fin 1) ∈ (scatterDims N K wf).scatterDimsToOperandDims from List.mem_singleton.mpr rfl)]
  refine congrArg (fun j => (idx j).toInt) ?_
  funext b
  refine Fin.ext ?_
  match b with
  | ⟨0, _⟩ => rfl
  | ⟨1, _⟩ => rfl

/-- The operand's one axis is inserted: an update has no window coordinate on it. -/
theorem window_eq (m : Fin K) (a : Fin 1) : (scatterDims N K wf).window (ix1 m) a = 0 := by
  obtain rfl : a = 0 := Subsingleton.elim _ _
  rfl

/-- Update m lands at entry k exactly when its index word, read signed, is k. -/
theorem lands_iff (m : Fin K) (k : Fin N) :
    (scatterDims N K wf).resultIdx? (ix1 m) idx = some (ix1 k)
      ↔ (idx (ix2 m (0 : Fin 1))).toInt = (k.val : Int) := by
  unfold ScatterDims.resultIdx?
  split
  · rename_i hr
    have h0 := hr (0 : Fin 1)
    rw [start_eq, window_eq] at h0
    constructor
    · intro e
      have hv := congrArg Fin.val (congrFun (Option.some.inj e) (0 : Fin 1))
      change ((scatterDims N K wf).start (ix1 m) idx 0 + ((scatterDims N K wf).window (ix1 m) 0 : Int)).toNat = k.val at hv
      rw [start_eq, window_eq] at hv
      omega
    · intro e
      congr 1
      funext a
      obtain rfl : a = 0 := Subsingleton.elim _ _
      refine Fin.ext ?_
      change ((scatterDims N K wf).start (ix1 m) idx 0 + ((scatterDims N K wf).window (ix1 m) 0 : Int)).toNat = k.val
      rw [start_eq, window_eq]
      omega
  · rename_i hr
    constructor
    · intro e; exact absurd e (by simp)
    · intro e
      exfalso
      apply hr
      intro a
      rw [start_eq, window_eq]
      have := k.isLt
      constructor
      · omega
      · show (idx (ix2 m (0 : Fin 1))).toInt + ((0 : Nat) : Int) < ((![N] a : Nat) : Int)
        obtain rfl : a = 0 := Subsingleton.elim _ _
        show (idx (ix2 m (0 : Fin 1))).toInt + ((0 : Nat) : Int) < (N : Int)
        omega

end Land

/-! ### The histogram -/

/-- Entry k of the histogram, as a 32-bit word: the number of index words that are k. -/
theorem scatter_ones_apply {N K : Nat} (hK : K < 2 ^ 31)
    (wf : ScatterDims.WF ⟨1, ![N]⟩ ⟨2, ![K, 1]⟩ ⟨1, ![K]⟩ [] [0] [0] 1)
    (idx : IVec ⟨2, ![K, 1]⟩ 32) (k : Fin N) :
    Host.scatter (scatterDims N K wf) IntOp.addi (fun _ => 0#32) idx (fun _ => 1#32) (ix1 k)
      = BitVec.ofNat 32 (count idx k.val) := by
  have hfold : Host.scatter (scatterDims N K wf) IntOp.addi (fun _ => 0#32) idx (fun _ => 1#32)
      = (List.finRange (⟨1, ![K]⟩ : Shape).numel).foldl (step (scatterDims N K wf) idx) (fun _ => 0#32) := rfl
  rw [hfold, foldl_step_apply, BitVec.zero_add]
  congr 1
  -- the number of update numbers that land at k is the number of index words that are k
  rw [← List.Nodup.card_eq_countP (List.nodup_finRange _), List.toFinset_finRange]
  unfold count
  refine Finset.card_equiv ((⟨1, ![K]⟩ : Shape).rowMajor.symm.trans idxEquiv1) fun n => ?_
  simp only [Finset.mem_filter, Finset.mem_univ, true_and, decide_eq_true_eq]
  rw [eq_ix1 ((⟨1, ![K]⟩ : Shape).rowMajor.symm n)]
  exact lands_iff wf idx _ k

/-- Entry k of the histogram converted to a float, at the ideal values: the count, exactly. -/
theorem hist_apply {N K : Nat} (hK : K < 2 ^ 31)
    (wf : ScatterDims.WF ⟨1, ![N]⟩ ⟨2, ![K, 1]⟩ ⟨1, ![K]⟩ [] [0] [0] 1)
    (idx : IVec ⟨2, ![K, 1]⟩ 32) (k : Fin N) :
    sitofp (F := Ideal) .f32 (Host.scatter (scatterDims N K wf) IntOp.addi (fun _ => 0#32) idx (fun _ => 1#32)) (ix1 k)
      = ((count idx k.val : ℝ) : EReal) := by
  show (((Host.scatter (scatterDims N K wf) IntOp.addi (fun _ => 0#32) idx (fun _ => 1#32) (ix1 k)).toInt : ℝ) : EReal) = _
  rw [scatter_ones_apply hK wf idx k]
  have hc := count_le idx k.val
  have hn : (BitVec.ofNat 32 (count idx k.val)).toNat = count idx k.val := by
    rw [BitVec.toNat_ofNat]
    exact Nat.mod_eq_of_lt (by omega)
  have hi : (BitVec.ofNat 32 (count idx k.val)).toInt = (count idx k.val : Int) := by
    rw [BitVec.toInt_eq_toNat_of_lt (by rw [hn]; omega), hn]
  rw [hi]
  norm_cast

end Cert.Hist

end
-- ==== Proof.HostPre.lean ====
/-
  The weight column the kernel multiplies by, as the host operations before the region leave it.

  They scatter-add 1 into a zero vector of length 1024 at the 512 item words, each first moved up by 1024
  when negative (read signed); convert the 32-bit counts to floats; and reshape [1024] to [1024, 1].
  Hence entry (k, 0) is, at the ideal values, the number of item words whose moved value is k.
-/
import proofs.«426038_j14766097564250_2_alg».proof.Proof.Gen.KernelIdeal.Frame
import proofs.«426038_j14766097564250_2_alg».proof.Proof.Hist
import proofs.«426038_j14766097564250_2_alg».proof.Proof.Wrap
import Idealize.ShloMosaic.Lib.StableHlo.Run
import Idealize.ShloMosaic.Lib.Pipeline.Value
import Idealize.ShloMosaic.Lib.ValueIdx

noncomputable section

namespace Cert.KernelIdeal.HostPre

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The column after the host operations, as one term over the launched item words. -/
theorem V_w_term (c : Dev nD) :
    (V (F := Ideal) m c main_v10 : S1024x1.Idx → EReal)
      = shapeCast S1024x1 (sitofp (F := Ideal) .f32 (Host.scatter scatter_S1024_S512x1_S512_n_0_0_1 IntOp.addi
          (broadcastInDim S1024 ![] bcast_S_S1024 (constantI S_ 32 0#32))
          (broadcastInDim S512x1 ![0] bcast_S512_S512x1_0
            (select (cmpi .slt (m ((c : Thread nD τ).loc main_arg4) : S512.Idx → BitVec 32) (broadcastInDim S512 ![] bcast_S_S512 (constantI S_ 32 0#32)))
              (addi (m ((c : Thread nD τ).loc main_arg4) : S512.Idx → BitVec 32) (broadcastInDim S512 ![] bcast_S_S512 (constantI S_ 32 1024#32)))
              (m ((c : Thread nD τ).loc main_arg4) : S512.Idx → BitVec 32)))
          (broadcastInDim S512 ![] bcast_S_S512 (constantI S_ 32 1#32)))) shapeCasts_S1024_S1024x1 := by
  show StableHlo.after hostOps0 (fun b => m (c, b)) (Proc.devRef .tc main_v10) = _
  after_results
  rfl

/-- The index column at (j, 0): item word j, moved up by 1024 when negative. -/
theorem idxcol_apply (items : S512.Idx → BitVec 32) (j : Fin 512) :
    (broadcastInDim S512x1 ![0] bcast_S512_S512x1_0
        (select (cmpi .slt items (broadcastInDim S512 ![] bcast_S_S512 (constantI S_ 32 0#32)))
          (addi items (broadcastInDim S512 ![] bcast_S_S512 (constantI S_ 32 1024#32))) items) : S512x1.Idx → BitVec 32)
      (ix2 j (0 : Fin 1))
      = Cert.Idx.wrap 1024#32 (items (ix1 j)) := by
  rw [broadcastInDim_apply _ _ _ (ix2 j (0 : Fin 1)) (ix1 j) (by
    intro a
    match a with
    | ⟨0, _⟩ => rfl)]
  rfl

/-- ENTRY (k, 0) OF THE WEIGHT COLUMN: the number of item words whose moved value is k. -/
theorem V_w (c : Dev nD) (k : Fin 1024) :
    (V (F := Ideal) m c main_v10 : S1024x1.Idx → EReal) (ix2 k (0 : Fin 1))
      = (((Finset.univ.filter fun j : Fin 512 =>
            (Cert.Idx.wrap 1024#32 ((m ((c : Thread nD τ).loc main_arg4) : S512.Idx → BitVec 32) (ix1 j))).toInt = (k.val : Int)).card : ℝ) : EReal) := by
  rw [V_w_term m c]
  -- the reshape [1024] → [1024, 1] read at (k, 0) is entry k: both have row-major position k
  rw [shapeCast_apply _ _ (ix2 k (0 : Fin 1)) (ix1 k) (by
    rw [Shape.rowMajor_val_one, Shape.rowMajor_val_two]
    show k.val = k.val * 1 + 0
    omega)]
  -- the operand is the zero vector and every update is 1
  have hz : (broadcastInDim S1024 ![] bcast_S_S1024 (constantI S_ 32 0#32) : S1024.Idx → BitVec 32) = fun _ => 0#32 :=
    funext fun _ => rfl
  have ho : (broadcastInDim S512 ![] bcast_S_S512 (constantI S_ 32 1#32) : S512.Idx → BitVec 32) = fun _ => 1#32 :=
    funext fun _ => rfl
  have hd : scatter_S1024_S512x1_S512_n_0_0_1 = Cert.Hist.scatterDims 1024 512 scatter_S1024_S512x1_S512_n_0_0_1_wf := rfl
  rw [hz, ho, hd, Cert.Hist.hist_apply (by norm_num) _ _ k]
  -- the count over the index column is the count over the moved item words
  unfold Cert.Hist.count
  refine congrArg (fun n : Nat => ((n : ℝ) : EReal)) (congrArg Finset.card (Finset.filter_congr fun j _ => ?_))
  rw [idxcol_apply]

end Cert.KernelIdeal.HostPre

end
-- ==== Proof.PreItems.lean ====
/-
  The printed precondition, read back for the item indices: the function is a conjunction of five
  "all entries" tests, and the last two say that every entry of the 512 item words is, read signed,
  at least 0 and below 1024.
-/
import proofs.«426038_j14766097564250_2_alg».proof.Pre_finite_inputs
import Idealize.ShloMosaic.Lib.ReduceAll
import Idealize.ShloMosaic.Lib.StableHlo.Predicate
import Idealize.ShloMosaic.Lib.ValueIdx

namespace Cert.PreItems

open Idealize.ShloMosaic Idealize.ShloMosaic.ValueIdx

/-- A rank-0 shape has one index. -/
instance : Subsingleton Cert.Pre_finite_inputs.S_.Idx := ⟨fun _ _ => funext fun d => d.elim0⟩

/-- Where the precondition holds, every item word is in [0, 1024), read signed. -/
theorem items_range [Cert.Pre_finite_inputs.Facts] {F : FTy → Type} [FloatOps F]
    (T : FVec F Cert.Pre_finite_inputs.S256x1024x1024 .f32) (gu gi : FVec F Cert.Pre_finite_inputs.S512x64 .f32)
    (users items : IVec Cert.Pre_finite_inputs.S512 32)
    (h : Cert.Pre_finite_inputs.fn (F := F) T gu gi users items = fun _ => 1#1) (m : Fin 512) :
    0 ≤ (items (ix1 m)).toInt ∧ (items (ix1 m)).toInt < 1024 := by
  have h0 := congrFun h ix0
  dsimp only [Cert.Pre_finite_inputs.fn, Cert.Pre_finite_inputs.fn_part1, andi] at h0
  -- the outer conjunction: (first three tests and "≥ 0") and "< 1024"
  obtain ⟨h17, h20⟩ := IntOp.andi_eq_one.1 h0
  obtain ⟨_, h16⟩ := IntOp.andi_eq_one.1 h17
  -- each test is a reduction by "and" into one entry: every compared entry is 1
  have hge := Host.reduce_andi_all _ _ _ _ _ h16 (ix1 m)
  have hlt := Host.reduce_andi_all _ _ _ _ _ h20 (ix1 m)
  -- the broadcast constants read 0 and 1024 at every entry
  have hge' : IntOp.cmpi .sge (items (ix1 m)) 0#32 = 1#1 := hge
  have hlt' : IntOp.cmpi .slt (items (ix1 m)) 1024#32 = 1#1 := hlt
  unfold IntOp.cmpi at hge' hlt'
  simp only [BitVec.sle, BitVec.slt, StableHlo.Predicate.ofBool_eq_one_iff, decide_eq_true_eq] at hge' hlt'
  have e0 : (0#32).toInt = 0 := by decide
  have e1 : (1024#32).toInt = 1024 := by decide
  rw [e0] at hge'
  rw [e1] at hlt'
  exact ⟨hge', hlt'⟩

end Cert.PreItems
-- ==== Proof.Glue.lean ====
/-
  The two programs' computed results are equal.

  The reference's results are the last stages of ITS row sums; the kernel program's are the same last stages of the rows
  of the region's result. Under the precondition (every item word in [0, 1024)) the two arrays of row sums are one
  array, and the arguments agree, so the results agree.
-/
import proofs.«426038_j14766097564250_2_alg».proof.Proof.KRun
import proofs.«426038_j14766097564250_2_alg».proof.Proof.Bridge
import proofs.«426038_j14766097564250_2_alg».proof.Proof.HostPre
import proofs.«426038_j14766097564250_2_alg».proof.Proof.PreItems
import proofs.«426038_j14766097564250_2_alg».proof.Proof.Tail
import proofs.«426038_j14766097564250_2_alg».proof.Proof.Gen.ReferenceIdeal.Read

noncomputable section

open Idealize.ShloMosaic Idealize.ShloMosaic.TcCoe Idealize.SL.Sem Idealize.ShloMosaic.ValueIdx

namespace Cert.Glue

open Cert.KernelIdeal.KRun

/-- The row sums: the reference's are the rows the kernel's program takes. -/
theorem rows_eq (m : (ℓ : Loc Cert.KernelIdeal.nD Cert.KernelIdeal.τ Cert.KernelIdeal.sig) → Buf (Elt Ideal) ℓ)
    (c : Dev Cert.KernelIdeal.nD)
    (hr : ∀ j : Fin 512, 0 ≤ ((m ((c.tc : Thread Cert.KernelIdeal.nD Cert.KernelIdeal.τ).loc Cert.KernelIdeal.main_arg4) : Cert.KernelIdeal.S512.Idx → BitVec 32) (ix1 j)).toInt
      ∧ ((m ((c.tc : Thread Cert.KernelIdeal.nD Cert.KernelIdeal.τ).loc Cert.KernelIdeal.main_arg4) : Cert.KernelIdeal.S512.Idx → BitVec 32) (ix1 j)).toInt < 1024) :
    Cert.ReferenceIdeal.Read.val_main_v18 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.HostTail.rows
          (Cert.KernelIdeal.Final.vfun (m ((c.tc : Thread Cert.KernelIdeal.nD Cert.KernelIdeal.τ).loc Cert.KernelIdeal.main_arg0))
            (Cert.KernelIdeal.Blocks.warr m c))
          (m ((c.tc : Thread Cert.KernelIdeal.nD Cert.KernelIdeal.τ).loc Cert.KernelIdeal.main_arg3)) := by
  funext i
  obtain ⟨b, cc, rfl⟩ : ∃ (b : Fin 512) (cc : Fin 1024), i = ix2 b cc := ⟨i 0, i 1, eq_ix2 i⟩
  exact (Cert.Bridge.rowsum_eq _ (Cert.KernelIdeal.Blocks.warr m c) _ _ (fun k => Cert.KernelIdeal.HostPre.V_w m c k) hr b cc).symm

end Cert.Glue

end
-- ==== Proof.lean ====
/-
  The kernel computes, for each of the 512 queries b, the vector Σ_m T[users b, items m, :] (a [512, 1024] array of
  row sums), takes its columns at the item words, multiplies by gi, normalises each row and contracts with gu. The
  reference gathers the 512 × 512 slabs T[users b, items m, :] and sums them over m. The kernel instead builds the
  histogram w of the item words on the host, reduces T once against it in a pallas_call,
      v (u, c) = Σ_k T (u, k, c) · w (k),
  and takes the rows of v at the user words; everything after the row sums is the same host program on both sides.

  Over the extended reals the two arrays of row sums are equal — regrouping the 512 terms by the value of the item word,
  a product with a count being the count-fold sum — as soon as every item word is in [0, 1024): a word outside that
  range is dropped by the histogram's scatter and clamped by the reference's gather. That range is the statement's
  added precondition; finiteness of the float inputs is not used.

  The three frames are the generated ones (the reference's is its generated run, the results dropped); the ideal pass
  rewrote nothing, so `preserves` is trivial.
-/
import proofs.«426038_j14766097564250_2_alg».proof.Defs
import proofs.«426038_j14766097564250_2_alg».proof.Proof.Gen.Kernel
import proofs.«426038_j14766097564250_2_alg».proof.Proof.Gen.Kernel.Skeleton
import proofs.«426038_j14766097564250_2_alg».proof.Proof.Gen.Kernel.Launch
import proofs.«426038_j14766097564250_2_alg».proof.Proof.Gen.Kernel.Points
import proofs.«426038_j14766097564250_2_alg».proof.Proof.Gen.Kernel.Frame
import proofs.«426038_j14766097564250_2_alg».proof.Proof.Gen.KernelIdeal
import proofs.«426038_j14766097564250_2_alg».proof.Proof.Gen.KernelIdeal.Skeleton
import proofs.«426038_j14766097564250_2_alg».proof.Proof.Gen.KernelIdeal.Launch
import proofs.«426038_j14766097564250_2_alg».proof.Proof.Gen.KernelIdeal.Points
import proofs.«426038_j14766097564250_2_alg».proof.Proof.Gen.KernelIdeal.Frame
import proofs.«426038_j14766097564250_2_alg».proof.Proof.Gen.ReferenceIdeal
import proofs.«426038_j14766097564250_2_alg».proof.Proof.Gen.ReferenceIdeal.Run
import proofs.«426038_j14766097564250_2_alg».proof.Proof.Gen.ReferenceIdeal.Read
import proofs.«426038_j14766097564250_2_alg».proof.Proof.Gen.Pre_finite_inputs
import proofs.«426038_j14766097564250_2_alg».proof.Proof.KRun
import proofs.«426038_j14766097564250_2_alg».proof.Proof.Glue
import proofs.«426038_j14766097564250_2_alg».proof.Proof.Tail
import proofs.«426038_j14766097564250_2_alg».proof.Proof.PreItems
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the computed results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the arguments, with every item word in range, both programs end with the same two
    computed results: the last stages of one array of row sums. -/
theorem algebraic : Cert.algebraic_KernelIdeal_ReferenceIdeal := by
  intro m ρ m' ρ' hpre hagree
  refine ⟨fun c => Cert.KernelIdeal.KRun.out33 m c,
    fun c => m ((c.tc : Thread Cert.KernelIdeal.nD Cert.KernelIdeal.τ).loc Cert.KernelIdeal.main_arg1),
    fun c => Cert.KernelIdeal.KRun.out31 m c, Cert.KernelIdeal.KRun.run m ρ, ?_⟩
  refine (θ_run Cert.ReferenceIdeal.defs _ _).mono (fun r h c => ?_) (Cert.ReferenceIdeal.Value.run (F := Ideal) m' ρ')
  obtain ⟨h33, h1, h31, hrest⟩ := h c
  obtain ⟨a0, a1, a2, a3, a4⟩ := hagree c
  have hr := fun j => Cert.PreItems.items_range _ _ _ _ _ (hpre c) j
  have e31 : Cert.ReferenceIdeal.Value.res_main_v31 m' c = Cert.KernelIdeal.KRun.out31 m c := by
    rw [Cert.ReferenceIdeal.Read.val_main_v31_eq, Cert.Tail.ref_v31, a0, a2, a3, a4, Cert.Glue.rows_eq m c hr]
    rfl
  have e33 : Cert.ReferenceIdeal.Value.res_main_v33 m' c = Cert.KernelIdeal.KRun.out33 m c := by
    rw [Cert.ReferenceIdeal.Read.val_main_v33_eq, Cert.Tail.ref_v33, ← Cert.ReferenceIdeal.Read.val_main_v31_eq, e31, a1]
    rfl
  exact ⟨h33.trans e33, h1.trans a1, h31.trans e31, hrest⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
